-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S16x8 .f32) (main_arg5 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg4
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x8 .f32) (main_arg5 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x16 : Shape := ⟨2, ![1, 16]⟩
abbrev S1x8 : Shape := ⟨2, ![1, 8]⟩
abbrev S10000x16 : Shape := ⟨2, ![10000, 16]⟩
abbrev S400x10000 : Shape := ⟨2, ![400, 10000]⟩
abbrev S400x16 : Shape := ⟨2, ![400, 16]⟩
abbrev S10000x8 : Shape := ⟨2, ![10000, 8]⟩
abbrev S400x8 : Shape := ⟨2, ![400, 8]⟩
abbrev S400 : Shape := ⟨1, ![400]⟩
abbrev S400x1 : Shape := ⟨2, ![400, 1]⟩

abbrev nBuf : Space → Nat
  | .hbm => 10
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x16, .f32⟩
  | .hbm, ⟨7, _⟩ => ⟨S1x8, .f32⟩
  | .hbm, ⟨8, _⟩ => ⟨S10000x16, .f32⟩
  | .hbm, ⟨9, _⟩ => ⟨S10000x8, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x16, .f32⟩
  | .local _ .vmem, ⟨4, _⟩ => ⟨S1x16, .f32⟩
  | .local _ .vmem, ⟨5, _⟩ => ⟨S400x16, .f32⟩
  | .local _ .vmem, ⟨6, _⟩ => ⟨S400x16, .f32⟩
  | .local _ .vmem, ⟨7, _⟩ => ⟨S10000x16, .f32⟩
  | .local _ .vmem, ⟨8, _⟩ => ⟨S400x10000, .f32⟩
  | .local _ .vmem, ⟨9, _⟩ => ⟨S400x10000, .f32⟩
  | .local _ .vmem, ⟨10, _⟩ => ⟨S10000x16, .f32⟩
  | .local _ .vmem, ⟨11, _⟩ => ⟨S16x8, .f32⟩
  | .local _ .vmem, ⟨12, _⟩ => ⟨S1x8, .f32⟩
  | .local _ .vmem, ⟨13, _⟩ => ⟨S400x8, .f32⟩
  | .local _ .vmem, ⟨14, _⟩ => ⟨S400x8, .f32⟩
  | .local _ .vmem, ⟨15, _⟩ => ⟨S10000x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S16_S1x16 : S16.ShapeCasts S1x16
  shapeCasts_S8_S1x8 : S8.ShapeCasts S1x8
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  inb_S16x8_S16x8_0_0 : ∀ a, (![0, 0] : Fin 2 → Nat) a + S16x8.size a ≤ S16x8.size a
  h_S16x8 : 0 < S16x8.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S400x8 : S1x8.Broadcasts S400x8
  reduces_S400x8_S400 : S400x8.Reduces [1] S400
  shapeCasts_S400_S400x1 : S400.ShapeCasts S400x1
  broadcasts_S400x1_S400x8 : S400x1.Broadcasts S400x8
  inb_S400x8_S400x8_0_0 : ∀ a, (![0, 0] : Fin 2 → Nat) a + S400x8.size a ≤ S400x8.size a
  h_S400x8 : 0 < S400x8.numel
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  dot_S10000x16_S16x8_S10000x8_1_0_0_1_n_n_wf : DotDims.WF S10000x16 S16x8 S10000x8 [1] [0] [0] [1] [] []
  dot_S400x10000_S10000x8_S400x8_1_0_0_1_n_n_wf : DotDims.WF S400x10000 S10000x8 S400x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x8.size a ≤ S10000x8.size a
  hwx1_4 : ∀ i : grid1.Coords, EltTy.bits .f32 = 32 ∨ (Rect.block (s := S10000x8) S400x8.size (cc1_transform_4 i) (hinb1_4 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S400x10000_S10000x8_S400x8_1_0_0_1_n_n : DotDims S400x10000 S10000x8 S400x8 where
  lhsContracting := [1]
  rhsContracting := [0]
  lhsNonContracting := [0]
  rhsNonContracting := [1]
  lhsBatch := []
  rhsBatch := []
  wf := dot_S400x10000_S10000x8_S400x8_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S10000x16 : Shape := ⟨2, ![10000, 16]⟩
abbrev S1x16 : Shape := ⟨2, ![1, 16]⟩
abbrev S_ : Shape := ⟨0, ![]⟩
abbrev S10000x8 : Shape := ⟨2, ![10000, 8]⟩
abbrev S1x8 : Shape := ⟨2, ![1, 8]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x8, .f32⟩
  | .hbm, ⟨15, _⟩ => ⟨S10000x8, .f32⟩
  | .hbm, ⟨16, _⟩ => ⟨S1x8, .f32⟩
  | .hbm, ⟨17, _⟩ => ⟨S10000x8, .f32⟩
  | .hbm, ⟨18, _⟩ => ⟨S10000x8, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x8, .f32⟩
  | .hbm, ⟨26, _⟩ => ⟨S10000x8, .f32⟩
  | .hbm, ⟨27, _⟩ => ⟨S10000x8, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x8, .f32⟩
  | .hbm, ⟨33, _⟩ => ⟨S10000x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  reducesTo_S10000x8_S10000_d1 : S10000x8.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x8_0_1 : S10000x1.BroadcastsInDim S10000x8 (![0, 1] : Fin 2 → Fin S10000x8.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x8_S10000x8_1_0_0_1_n_n_wf : DotDims.WF S10000x16 S16x8 S10000x8 [1] [0] [0] [1] [] []
  dot_S10000x10000_S10000x8_S10000x8_1_0_0_1_n_n_wf : DotDims.WF S10000x10000 S10000x8 S10000x8 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf

class Facts : Prop extends Facts₀ where

variable [Facts]
-- ==== Proof.Kernel.Layer1.lean ====
import proofs.«160376_g44289702756771_cont_8to1_c_1056_3_alg».proof.Proof.Gen.Kernel.Launch
import proofs.«160376_g44289702756771_cont_8to1_c_1056_3_alg».proof.Proof.Gen.Kernel.Skeleton
import proofs.«160376_g44289702756771_cont_8to1_c_1056_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The first graph-convolution layer's kernel, `h = max (adj · (x · W1) + b1) 0`, one block of 400 rows of `adj` per
    grid point. At the first grid point the body also fills its scratch with the projection `x · W1`; every point
    (the first included) multiplies its block of `adj` by the scratch, adds the bias row and clamps at zero.
    So the scratch is arbitrary before the first point and holds the projection after every point: that is the
    invariant carried between points, and what each point leaves in the output's staging buffer is one and the same
    function of the point's block of `adj`, the projection and the bias. Everything here is stated for any float
    values `F`: the kernel's arithmetic stays inside the two payload terms. -/

namespace Cert.Kernel.Layer1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body starts at the origin of its buffer. -/
theorem off_zero : (![0, 0] : Fin 2 → Nat) = fun _ => 0 := by funext a; fin_cases a <;> rfl

/-! ## The branch: the projection is computed at the first grid point only -/

/-- The condition of the body's one conditional, from the grid coordinates. -/
abbrev firstPoint (i : grid0.Coords) : Prop :=
  (Scalar.cmpi .ne (Scalar.extui (Scalar.cmpi .eq (BitVec.ofNat 32 (i 0).val) 0#32)) 0#32) = 1#1

/-- It holds at point 0 and nowhere else on the grid. -/
theorem firstPoint_iff : ∀ t : Fin cfg0.N, firstPoint (grid0.coords t) ↔ t.val = 0 :=
  (by decide +kernel : ∀ t : Fin grid0.N, firstPoint (grid0.coords t) ↔ t.val = 0)

/-! ## The body's two runs -/

set_option maxHeartbeats 1000000 in
/-- At the first point: from the four inputs at their contents and the output buffer and the scratch at anything, the
    body ends with the scratch at the projection of `x1` by `x2` and the output buffer at the layer's block computed
    from that projection (the load of the scratch after its own store reads what was stored). -/
theorem run_first (c : Dev nD) (E : Set ℕ) (i : grid0.Coords) (hc : firstPoint i)
    (arg1 : Memref sig .tc .vmem S400x10000 .f32) (harg1 : arg1.IsWhole) (arg2 : Memref sig .tc .vmem S10000x128 .f32) (harg2 : arg2.IsWhole)
    (arg3 : Memref sig .tc .vmem S128x16 .f32) (harg3 : arg3.IsWhole) (arg4 : Memref sig .tc .vmem S1x16 .f32) (harg4 : arg4.IsWhole)
    (arg5 : Memref sig .tc .vmem S400x16 .f32) (harg5 : arg5.IsWhole) (arg6 : Memref sig .tc .vmem S10000x16 .f32) (harg6 : arg6.IsWhole)
    (x0 : Vec F S400x10000 .f32) (x1 : Vec F S10000x128 .f32) (x2 : Vec F S128x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay2 x0 (k0_pay1 x1 x2) x3)
            ∗ owns (c : Thread nD τ) arg6 fullShare (k0_pay1 x1 x2)) -∗ K ⟨⟩))
      ⊢ wp frame (wpE (defs₀ (F := F)) Variants.none c none) E (cc0__layer1_body i arg1 harg1 arg2 harg2 arg3 harg3 arg4 harg4 arg5 harg5 arg6 harg6) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    sl_unfold_words
    rw [View.read_writes_eq_canon _ _ _ (View.cover_of_tiled _ S400x16.size (by rfl)), View.canon_unit_zero off_zero,
      View.readCov_unit_zero _ off_zero]
    simp only [View.readAt_eq_ld, hf0, hf1, hf2, hf3, View.ld_unit_zero (S := S400x10000) off_zero, View.ld_unit_zero (S := S10000x128) off_zero, View.ld_unit_zero (S := S128x16) off_zero, View.ld_unit_zero (S := S1x16) off_zero]
  · iexists _; isplitr
    swap; · iexact H6
    ipureintro
    sl_unfold_words
    rw [View.read_writes_eq_canon _ _ _ (View.cover_of_tiled _ S10000x16.size (by rfl)), View.canon_unit_zero off_zero]
    simp only [View.readAt_eq_ld, hf0, hf1, hf2, hf3, View.ld_unit_zero (S := S10000x128) off_zero, View.ld_unit_zero (S := S128x16) off_zero]

set_option maxHeartbeats 1000000 in
/-- At any later point: the scratch, at contents `s`, is only read; the output buffer ends at the layer's block
    computed from `s`. (The other two inputs are not touched and stay with the caller.) -/
theorem run_later (c : Dev nD) (E : Set ℕ) (i : grid0.Coords) (hc : ¬firstPoint i)
    (arg1 : Memref sig .tc .vmem S400x10000 .f32) (harg1 : arg1.IsWhole) (arg2 : Memref sig .tc .vmem S10000x128 .f32) (harg2 : arg2.IsWhole)
    (arg3 : Memref sig .tc .vmem S128x16 .f32) (harg3 : arg3.IsWhole) (arg4 : Memref sig .tc .vmem S1x16 .f32) (harg4 : arg4.IsWhole)
    (arg5 : Memref sig .tc .vmem S400x16 .f32) (harg5 : arg5.IsWhole) (arg6 : Memref sig .tc .vmem S10000x16 .f32) (harg6 : arg6.IsWhole)
    (x0 : Vec F S400x10000 .f32) (s : Vec F S10000x16 .f32) (x3 : Vec F S1x16 .f32) (K : PUnit → sProp 𝕄) :
    iprop(owns (c : Thread nD τ) arg1 fullShare x0 ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg4 fullShare x3 ∗ owns (c : Thread nD τ) arg5 fullShare (k0_pay2 x0 s x3)
            ∗ owns (c : Thread nD τ) arg6 fullShare s) -∗ K ⟨⟩))
      ⊢ wp frame (wpE (defs₀ (F := F)) Variants.none c none) E (cc0__layer1_body i arg1 harg1 arg2 harg2 arg3 harg3 arg4 harg4 arg5 harg5 arg6 harg6) K := by
  simp only [cc0__layer1_body_eq_skeleton]; unfold cc0__layer1_body_skel
  unfold owns
  iintro ⟨⟨%f0, %hf0, H0⟩, ⟨%f3, %hf3, H3⟩, ⟨%d5, %f5, -, H5⟩, ⟨%f6, %hf6, H6⟩, Hk⟩
  obtain rfl := harg1.eq_unread hf0; obtain rfl := harg4.eq_unread hf3; obtain rfl := harg6.eq_unread hf6
  sl_exec (disch := exact hc)
  sl_step
  iapply Hk
  isplitl [H0]
  · iexists _; isplitr; · ipureintro; exact hf0
    iexact H0
  isplitl [H3]
  · iexists _; isplitr; · ipureintro; exact hf3
    iexact H3
  isplitl [H5]
  · iexists _; isplitr
    swap; · iexact H5
    ipureintro
    sl_unfold_words
    rw [View.read_writes_eq_canon _ _ _ (View.cover_of_tiled _ S400x16.size (by rfl)), View.canon_unit_zero off_zero]
    simp only [View.readAt_eq_ld, hf0, hf3, hf6, View.ld_unit_zero (S := S400x10000) off_zero, View.ld_unit_zero (S := S10000x16) off_zero, View.ld_unit_zero (S := S1x16) off_zero]
  · iexists _; isplitr; · ipureintro; exact hf6
    iexact H6

section Region

-- the contents of the core's buffers when the region is entered: the parameter the region is stated at
variable (V : (c : Dev nD) → (b : Ref sig .tc) → Buf (Elt F) ((c : Thread nD τ).loc b))

/-! ## The windows' blocks -/

/-- Window `w`'s block at point `t`, read off its array as the region finds it. Window 0 is the point's 400 rows of
    `adj`; windows 1, 2, 3 are the whole of `x`, `W1` and the bias row at every point. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the region-entry contents and whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the points leave -/

/-- The first grid point. -/
abbrev t₀ : Fin cfg0.N := ⟨0, by decide⟩

/-- The projection `x · W1`, as the first point computes it from its blocks of windows 1 and 2 (the whole arrays). -/
def proj (c : Dev nD) : Vec F S10000x16 .f32 := k0_pay1 (iblk V c 1 t₀) (iblk V c 2 t₀)

/-- The scratch the kernel carries between points, as a memref. -/
abbrev scM : Memref sig .tc .vmem S10000x16 .f32 := Memref.whole cc0_scratch0

/-- The core's scoped buffers this kernel neither stages nor names (the other call's staging buffers and scratch),
    each at some contents: carried through the region unopened. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class's invariant with this kernel's scratch split off as a memref owned at some contents. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-- THE CARRIED INVARIANT before position `n`: before the first point the class's (the scratch at anything); after any
    point the scratch holds the projection. -/
def carried (c : Dev nD) : ℕ → sProp 𝕄
  | 0 => Pipeline.ΦA spec0 c
  | _ + 1 => iprop(iprop(owns (c : Thread nD τ) scM fullShare (proj V c) ∗ others (F := F) c) ∗ (∃ r, prngReg c r))

theorem carried_pos (c : Dev nD) (n : ℕ) (hn : n ≠ 0) :
    carried V c n = iprop(iprop(owns (c : Thread nD τ) scM fullShare (proj V c) ∗ others (F := F) c) ∗ (∃ r, prngReg c r)) := by
  cases n with
  | zero => exact absurd rfl hn
  | succ n => rfl

/-! ## The pipeline's proof data -/

/-- The proof data of the first layer's pipeline on core `c`: the arrays as the region finds them; after the body at
    point `t` each input's buffer at its block and the output's at the layer's block `max (adj-block · proj + b1) 0`;
    the invariant `carried`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay2 (iblk V c 0 t) (proj V c) (iblk V c 3 t)
  Φ t := carried V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = k0_pay2 (iblk V c 0 t) (proj V c) (iblk V c 3 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 2000000 in
/-- The body at any point. At the first the invariant hands over the scratch at anything and takes it back at the
    projection (`run_first`); at a later one it hands it over at the projection and takes it back unchanged
    (`run_later`). The inputs' buffers hold their blocks throughout; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = carried V c (t.val + 1) from rfl,
    show (dat V c).Φ t.castSucc = carried V c t.val from rfl,
    carried_pos V c (t.val + 1) (Nat.succ_ne_zero _),
    after_0, after_1, after_2, after_3, after_4]
  by_cases hz : t.val = 0
  · obtain rfl : t = t₀ := Fin.ext hz
    rw [show carried V c (t₀ : Fin cfg0.N).val = Pipeline.ΦA spec0 c from rfl, PhiA_eq]
    iintro ⟨⟨⟨HS, Hoth⟩, Hg⟩, Ho, ⟨%d0, H0⟩, ⟨%d1, H1⟩, ⟨%d2, H2⟩, ⟨%d3, H3⟩, ⟨%d4, H4⟩⟩
    iapply (run_first c Set.univ (grid0.coords t₀) ((firstPoint_iff t₀).mpr rfl) _ _ _ _ _ _ _ _ _ _ _ _
      (iblk V c 0 t₀) (iblk V c 1 t₀) (iblk V c 2 t₀) (iblk V c 3 t₀) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [carried_pos V c t.val hz]
    iintro ⟨⟨⟨HS, Hoth⟩, Hg⟩, Ho, ⟨%d0, H0⟩, ⟨%d1, H1⟩, ⟨%d2, H2⟩, ⟨%d3, H3⟩, ⟨%d4, H4⟩⟩
    iapply (run_later c Set.univ (grid0.coords t) (fun h => hz ((firstPoint_iff t).mp h)) _ _ _ _ _ _ _ _ _ _ _ _
      (iblk V c 0 t) (proj V c) (iblk V c 3 t) _)
    isplitl [H0]; · iexact H0
    isplitl [H3]; · iexact H3
    isplitl [H4]; · iexists _; iexact H4
    isplitl [HS]; · iexact HS
    iintro ⟨H0, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

/-- Before the first point it is the class's invariant, -/
theorem Phi_first (c : Dev nD) : (dat V c).Φ 0 = Pipeline.ΦA spec0 c := rfl

/-- and after the last point it gives the class's invariant back: what the scratch holds is forgotten. -/
theorem Phi_last (c : Dev nD) : (dat V c).Φ (Fin.last cfg0.N) ⊢ Pipeline.ΦA spec0 c := by
  rw [show (dat V c).Φ (Fin.last cfg0.N) = carried V c cfg0.N from rfl,
    carried_pos V c cfg0.N (by rw [show cfg0.N = 25 from N_0]; decide), PhiA_eq]
  iintro ⟨⟨HS, Hoth⟩, Hg⟩
  isplitl [HS Hoth]
  · isplitl [HS]; · iexists _; iexact HS
    iexact Hoth
  iexact Hg

end Region

end Cert.Kernel.Layer1

end
-- ==== Proof.Kernel.Layer2.lean ====
import proofs.«160376_g44289702756771_cont_8to1_c_1056_3_alg».proof.Proof.Gen.Kernel.Launch
import proofs.«160376_g44289702756771_cont_8to1_c_1056_3_alg».proof.Proof.Gen.Kernel.Skeleton
import proofs.«160376_g44289702756771_cont_8to1_c_1056_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The second graph-convolution layer's kernel with its fused log-softmax, `out = logsoftmax (adj · (h · W2) + b2)`, one
    block of 400 rows of `adj` per grid point. At the first grid point the body also fills its scratch with the
    projection `h · W2` of the whole hidden layer; every point (the first included) multiplies its block of `adj` by the
    scratch, adds the bias row and normalises each row of eight logits. So the scratch is arbitrary before the first
    point and holds the projection after every point: that is the invariant carried between points, and what each
    point leaves in the output's staging buffer is one and the same function of the point's block of `adj`, the
    projection and the bias. Everything here is stated for any float values `F`: the kernel's arithmetic stays inside
    the two payload terms. -/

namespace Cert.Kernel.Layer2

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body starts at the origin of its buffer. -/
theorem off_zero : (![0, 0] : Fin 2 → Nat) = fun _ => 0 := by funext a; fin_cases a <;> rfl

/-! ## The branch: the projection is computed at the first grid point only -/

/-- The condition of the body's one conditional, from the grid coordinates. -/
abbrev firstPoint (i : grid1.Coords) : Prop :=
  (Scalar.cmpi .ne (Scalar.extui (Scalar.cmpi .eq (BitVec.ofNat 32 (i 0).val) 0#32)) 0#32) = 1#1

/-- It holds at point 0 and nowhere else on the grid. -/
theorem firstPoint_iff : ∀ t : Fin cfg1.N, firstPoint (grid1.coords t) ↔ t.val = 0 :=
  (by decide +kernel : ∀ t : Fin grid1.N, firstPoint (grid1.coords t) ↔ t.val = 0)

/-! ## The body's two runs -/

set_option maxHeartbeats 1000000 in
/-- At the first point: from the four inputs at their contents and the output buffer and the scratch at anything, the
    body ends with the scratch at the projection of `x1` by `x2` and the output buffer at the normalised block computed
    from that projection (the load of the scratch after its own store reads what was stored). -/
theorem run_first (c : Dev nD) (E : Set ℕ) (i : grid1.Coords) (hc : firstPoint i)
    (arg1 : Memref sig .tc .vmem S400x10000 .f32) (harg1 : arg1.IsWhole) (arg2 : Memref sig .tc .vmem S10000x16 .f32) (harg2 : arg2.IsWhole)
    (arg3 : Memref sig .tc .vmem S16x8 .f32) (harg3 : arg3.IsWhole) (arg4 : Memref sig .tc .vmem S1x8 .f32) (harg4 : arg4.IsWhole)
    (arg5 : Memref sig .tc .vmem S400x8 .f32) (harg5 : arg5.IsWhole) (arg6 : Memref sig .tc .vmem S10000x8 .f32) (harg6 : arg6.IsWhole)
    (x0 : Vec F S400x10000 .f32) (x1 : Vec F S10000x16 .f32) (x2 : Vec F S16x8 .f32) (x3 : Vec F S1x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay2 x0 (k1_pay1 x1 x2) x3)
            ∗ owns (c : Thread nD τ) arg6 fullShare (k1_pay1 x1 x2)) -∗ K ⟨⟩))
      ⊢ wp frame (wpE (defs₀ (F := F)) Variants.none c none) E (cc1__layer2_body i arg1 harg1 arg2 harg2 arg3 harg3 arg4 harg4 arg5 harg5 arg6 harg6) K := by
  simp only [cc1__layer2_body_eq_skeleton]; unfold cc1__layer2_body_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    sl_unfold_words
    rw [View.read_writes_eq_canon _ _ _ (View.cover_of_tiled _ S400x8.size (by rfl)), View.canon_unit_zero off_zero,
      View.readCov_unit_zero _ off_zero]
    simp only [View.readAt_eq_ld, hf0, hf1, hf2, hf3, View.ld_unit_zero (S := S400x10000) off_zero, View.ld_unit_zero (S := S10000x16) off_zero, View.ld_unit_zero (S := S16x8) off_zero, View.ld_unit_zero (S := S1x8) off_zero]
  · iexists _; isplitr
    swap; · iexact H6
    ipureintro
    sl_unfold_words
    rw [View.read_writes_eq_canon _ _ _ (View.cover_of_tiled _ S10000x8.size (by rfl)), View.canon_unit_zero off_zero]
    simp only [View.readAt_eq_ld, hf0, hf1, hf2, hf3, View.ld_unit_zero (S := S10000x16) off_zero, View.ld_unit_zero (S := S16x8) off_zero]

set_option maxHeartbeats 1000000 in
/-- At any later point: the scratch, at contents `s`, is only read; the output buffer ends at the layer's block
    computed from `s`. (The other two inputs are not touched and stay with the caller.) -/
theorem run_later (c : Dev nD) (E : Set ℕ) (i : grid1.Coords) (hc : ¬firstPoint i)
    (arg1 : Memref sig .tc .vmem S400x10000 .f32) (harg1 : arg1.IsWhole) (arg2 : Memref sig .tc .vmem S10000x16 .f32) (harg2 : arg2.IsWhole)
    (arg3 : Memref sig .tc .vmem S16x8 .f32) (harg3 : arg3.IsWhole) (arg4 : Memref sig .tc .vmem S1x8 .f32) (harg4 : arg4.IsWhole)
    (arg5 : Memref sig .tc .vmem S400x8 .f32) (harg5 : arg5.IsWhole) (arg6 : Memref sig .tc .vmem S10000x8 .f32) (harg6 : arg6.IsWhole)
    (x0 : Vec F S400x10000 .f32) (s : Vec F S10000x8 .f32) (x3 : Vec F S1x8 .f32) (K : PUnit → sProp 𝕄) :
    iprop(owns (c : Thread nD τ) arg1 fullShare x0 ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg4 fullShare x3 ∗ owns (c : Thread nD τ) arg5 fullShare (k1_pay2 x0 s x3)
            ∗ owns (c : Thread nD τ) arg6 fullShare s) -∗ K ⟨⟩))
      ⊢ wp frame (wpE (defs₀ (F := F)) Variants.none c none) E (cc1__layer2_body i arg1 harg1 arg2 harg2 arg3 harg3 arg4 harg4 arg5 harg5 arg6 harg6) K := by
  simp only [cc1__layer2_body_eq_skeleton]; unfold cc1__layer2_body_skel
  unfold owns
  iintro ⟨⟨%f0, %hf0, H0⟩, ⟨%f3, %hf3, H3⟩, ⟨%d5, %f5, -, H5⟩, ⟨%f6, %hf6, H6⟩, Hk⟩
  obtain rfl := harg1.eq_unread hf0; obtain rfl := harg4.eq_unread hf3; obtain rfl := harg6.eq_unread hf6
  sl_exec (disch := exact hc)
  sl_step
  iapply Hk
  isplitl [H0]
  · iexists _; isplitr; · ipureintro; exact hf0
    iexact H0
  isplitl [H3]
  · iexists _; isplitr; · ipureintro; exact hf3
    iexact H3
  isplitl [H5]
  · iexists _; isplitr
    swap; · iexact H5
    ipureintro
    sl_unfold_words
    rw [View.read_writes_eq_canon _ _ _ (View.cover_of_tiled _ S400x8.size (by rfl)), View.canon_unit_zero off_zero]
    simp only [View.readAt_eq_ld, hf0, hf3, hf6, View.ld_unit_zero (S := S400x10000) off_zero, View.ld_unit_zero (S := S10000x8) off_zero, View.ld_unit_zero (S := S1x8) off_zero]
  · iexists _; isplitr; · ipureintro; exact hf6
    iexact H6

section Region

-- the contents of the core's buffers when the region is entered: the parameter the region is stated at
variable (V : (c : Dev nD) → (b : Ref sig .tc) → Buf (Elt F) ((c : Thread nD τ).loc b))

/-! ## The windows' blocks -/

/-- Window `w`'s block at point `t`, read off its array as the region finds it. Window 0 is the point's 400 rows of
    `adj`; windows 1, 2, 3 are the whole of the hidden layer `h`, `W2` and the bias row at every point. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the region-entry contents and whose body leaves the block in place. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the points leave -/

/-- The first grid point. -/
abbrev t₀ : Fin cfg1.N := ⟨0, by decide⟩

/-- The projection `h · W2`, as the first point computes it from its blocks of windows 1 and 2 (the whole arrays). -/
def proj (c : Dev nD) : Vec F S10000x8 .f32 := k1_pay1 (iblk V c 1 t₀) (iblk V c 2 t₀)

/-- The scratch the kernel carries between points, as a memref. -/
abbrev scM : Memref sig .tc .vmem S10000x8 .f32 := Memref.whole cc1_scratch0

/-- The core's scoped buffers this kernel neither stages nor names (the other call's staging buffers and scratch),
    each at some contents: carried through the region unopened. -/
def others (c : Dev nD) : sProp 𝕄 :=
  Pipeline.scopedRestBut (Ix := Unit) (Name := ℕ) (U := UR sig nD τ) (Lvl := ℕ) (Val := Elt F) spec1 c [cc1_scratch0]

/-- The class's invariant with this kernel's scratch split off as a memref owned at some contents. -/
theorem PhiA_eq (c : Dev nD) :
    (Pipeline.ΦA spec1 c : sProp 𝕄)
      = iprop(iprop((∃ d, owns (c : Thread nD τ) scM fullShare d) ∗ others (F := F) c) ∗ (∃ r, prngReg c r)) := by
  unfold Pipeline.ΦA others
  rw [Pipeline.scopedRest_split_of_list spec1 c [cc1_scratch0] (by decide) (by decide)]
  simp only [Idealize.SL.BI.bigSepL_singleton, scM, owns_whole]; try rfl

/-- THE CARRIED INVARIANT before position `n`: before the first point the class's (the scratch at anything); after any
    point the scratch holds the projection. -/
def carried (c : Dev nD) : ℕ → sProp 𝕄
  | 0 => Pipeline.ΦA spec1 c
  | _ + 1 => iprop(iprop(owns (c : Thread nD τ) scM fullShare (proj V c) ∗ others (F := F) c) ∗ (∃ r, prngReg c r))

theorem carried_pos (c : Dev nD) (n : ℕ) (hn : n ≠ 0) :
    carried V c n = iprop(iprop(owns (c : Thread nD τ) scM fullShare (proj V c) ∗ others (F := F) c) ∗ (∃ r, prngReg c r)) := by
  cases n with
  | zero => exact absurd rfl hn
  | succ n => rfl

/-! ## The pipeline's proof data -/

/-- The proof data of the first layer's pipeline on core `c`: the arrays as the region finds them; after the body at
    point `t` each input's buffer at its block and the output's at the layer's block `logsoftmax (adj-block · proj + b2)`;
    the invariant `carried`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay2 (iblk V c 0 t) (proj V c) (iblk V c 3 t)
  Φ t := carried V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay2 (iblk V c 0 t) (proj V c) (iblk V c 3 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

set_option maxHeartbeats 2000000 in
/-- The body at any point. At the first the invariant hands over the scratch at anything and takes it back at the
    projection (`run_first`); at a later one it hands it over at the projection and takes it back unchanged
    (`run_later`). The inputs' buffers hold their blocks throughout; the core owes nothing. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl,
    show (dat V c).Φ t.succ = carried V c (t.val + 1) from rfl,
    show (dat V c).Φ t.castSucc = carried V c t.val from rfl,
    carried_pos V c (t.val + 1) (Nat.succ_ne_zero _),
    after_0, after_1, after_2, after_3, after_4]
  by_cases hz : t.val = 0
  · obtain rfl : t = t₀ := Fin.ext hz
    rw [show carried V c (t₀ : Fin cfg1.N).val = Pipeline.ΦA spec1 c from rfl, PhiA_eq]
    iintro ⟨⟨⟨HS, Hoth⟩, Hg⟩, Ho, ⟨%d0, H0⟩, ⟨%d1, H1⟩, ⟨%d2, H2⟩, ⟨%d3, H3⟩, ⟨%d4, H4⟩⟩
    iapply (run_first c Set.univ (grid1.coords t₀) ((firstPoint_iff t₀).mpr rfl) _ _ _ _ _ _ _ _ _ _ _ _
      (iblk V c 0 t₀) (iblk V c 1 t₀) (iblk V c 2 t₀) (iblk V c 3 t₀) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [carried_pos V c t.val hz]
    iintro ⟨⟨⟨HS, Hoth⟩, Hg⟩, Ho, ⟨%d0, H0⟩, ⟨%d1, H1⟩, ⟨%d2, H2⟩, ⟨%d3, H3⟩, ⟨%d4, H4⟩⟩
    iapply (run_later c Set.univ (grid1.coords t) (fun h => hz ((firstPoint_iff t).mp h)) _ _ _ _ _ _ _ _ _ _ _ _
      (iblk V c 0 t) (proj V c) (iblk V c 3 t) _)
    isplitl [H0]; · iexact H0
    isplitl [H3]; · iexact H3
    isplitl [H4]; · iexists _; iexact H4
    isplitl [HS]; · iexact HS
    iintro ⟨H0, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- Before the first point it is the class's invariant, -/
theorem Phi_first (c : Dev nD) : (dat V c).Φ 0 = Pipeline.ΦA spec1 c := rfl

/-- and after the last point it gives the class's invariant back: what the scratch holds is forgotten. -/
theorem Phi_last (c : Dev nD) : (dat V c).Φ (Fin.last cfg1.N) ⊢ Pipeline.ΦA spec1 c := by
  rw [show (dat V c).Φ (Fin.last cfg1.N) = carried V c cfg1.N from rfl,
    carried_pos V c cfg1.N (by rw [show cfg1.N = 25 from N_1]; decide), PhiA_eq]
  iintro ⟨⟨HS, Hoth⟩, Hg⟩
  isplitl [HS Hoth]
  · isplitl [HS]; · iexists _; iexact HS
    iexact Hoth
  iexact Hg

end Region

end Cert.Kernel.Layer2

end
-- ==== Proof.Kernel.Run.lean ====
import proofs.«160376_g44289702756771_cont_8to1_c_1056_3_alg».proof.Proof.Kernel.Layer1
import proofs.«160376_g44289702756771_cont_8to1_c_1056_3_alg».proof.Proof.Kernel.Layer2
import Idealize.ShloMosaic.Lib.StableHlo.Run
import Idealize.ShloMosaic.Lib.ValueIdx

set_option maxRecDepth 16384

noncomputable section

/-! The run of @main: two reshapes of the bias vectors on the host, then the first layer's region, then the second's.
    Between two items every unscoped buffer of a core is held at a valuation: the launch memory; that after the two
    reshapes; then a region's arrays at what its write-backs leave (the inputs as entered, the output folded block by
    block) and every other buffer as entered. The second region is entered straight from what the first leaves, so
    its window on the hidden layer reads the first region's output array. Every weakly fair execution ends with
    every unscoped buffer at the last valuation: the result array at the second region's output, each argument
    array — no item writes one — at its launch contents. -/

namespace Cert.Kernel.Run

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the two reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second's entry): its arrays at what the pipeline leaves, every other buffer as entered. -/
def W2 (c : Dev nD) : Valuation τ sig (Elt F) :=
  Pipeline.withArrays spec0 c (W1 m ρ c) fun w => (Layer1.dat (V1 m ρ) c).arrAt w cfg0.N
theorem W2_arr (c : Dev nD) (w : Fin cfg0.W) :
    W2 m ρ c (Proc.devRef .tc (Pipeline.arrRef spec0 w)) = (Layer1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Layer1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second region's exit. -/
def W3 (c : Dev nD) : Valuation τ sig (Elt F) :=
  Pipeline.withArrays spec1 c (W2 m ρ c) fun w => (Layer2.dat (V2 m ρ) c).arrAt w cfg1.N
theorem W3_arr (c : Dev nD) (w : Fin cfg1.W) :
    W3 m ρ c (Proc.devRef .tc (Pipeline.arrRef spec1 w)) = (Layer2.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Layer2.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: a region reads an argument through an input window or bypasses it, and the
    reshapes write only their own results -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((Layer1.dat (V1 m ρ) c).arrAt_in 1 rfl _).trans (Layer1.A_eq (V1 m ρ) c 1))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((Layer2.dat (V2 m ρ) c).arrAt_in 0 rfl _).trans (Layer2.A_eq (V2 m ρ) c 0))
    _ = W1 m ρ c (Proc.devRef .tc main_arg1) := (W2_arr m ρ c 0).trans (((Layer1.dat (V1 m ρ) c).arrAt_in 0 rfl _).trans (Layer1.A_eq (V1 m ρ) c 0))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((Layer1.dat (V1 m ρ) c).arrAt_in 2 rfl _).trans (Layer1.A_eq (V1 m ρ) c 2))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((Layer2.dat (V2 m ρ) c).arrAt_in 2 rfl _).trans (Layer2.A_eq (V2 m ρ) c 2))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

/-- No pipeline has a prefetched table. -/
abbrev adm : (p : Fin 2) → (pcfgs (F := F) p).Adm := fun p => (cfgs p).toPCfg_adm
/-- Each pipeline's proof data at its region's entry contents (a literal match, so that the pinned configuration at a
    numeral reduces to the printed one). -/
def pdats : (p : Fin 2) → (c : Dev nD) → Dat τ (Elt F) Unit ℕ (UR sig nD τ) ℕ (Pipeline.pin (pcfgs (F := F)) adm p) c
  | ⟨0, _⟩ => fun c => Layer1.dat (V1 m ρ) c
  | ⟨1, _⟩ => fun c => Layer2.dat (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The reshapes allocate nothing. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register and the scoped rest go into
    the carried invariant at its first position (the class's) and come back from its last (the scratch's contents
    forgotten); nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Layer1.Phi_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split
    out of the unscoped buffers and put back at the exit contents; the generator register and the scoped rest go into
    the carried invariant at its first position (the class's) and come back from its last (the scratch's contents
    forgotten); nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Layer2.Phi_last (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, with
    the result array at what the second region's write-backs leave and every argument array as launched. -/
theorem run_all : θ_run defs (onTc (τ := τ) (main (F := F))) ⟨m, fun _ => 0, ρ⟩ (fun r => ∀ c : Dev nD,
      r.2.mem ((c.tc : Thread nD τ).loc main_v3) = (Layer2.dat (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 4),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c),
        (h c _ (mem_uc main_arg4 (by decide))).trans (W3_main_arg4 m ρ c),
        (h c _ (mem_uc main_arg5 (by decide))).trans (W3_main_arg5 m ρ c)⟩)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

/-! ## What the regions find

    The first region is entered after the two reshapes: the arguments are as launched and the two bias rows are the
    bias vectors read as one-row matrices. The second region finds, besides, the first region's output array in
    `main_v2`. -/

theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg4 (c : Dev nD) : V1 m ρ c main_arg4 = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The first bias row is the first bias vector reshaped. -/
theorem V1_main_v0 (c : Dev nD) :
    (V1 m ρ c main_v0 : S1x16.Idx → Elt F .f32) = shapeCast S1x16 (m ((c : Thread nD τ).loc main_arg3)) shapeCasts_S16_S1x16 := by
  show StableHlo.after hostOps0 (W0 m ρ c) (Proc.devRef .tc main_v0) = _
  after_results; rfl
/-- The second bias row is the second bias vector reshaped. -/
theorem V1_main_v1 (c : Dev nD) :
    (V1 m ρ c main_v1 : S1x8.Idx → Elt F .f32) = shapeCast S1x8 (m ((c : Thread nD τ).loc main_arg5)) shapeCasts_S8_S1x8 := by
  show StableHlo.after hostOps0 (W0 m ρ c) (Proc.devRef .tc main_v1) = _
  after_results; rfl

/-- Entry `j` of the one-row matrix is entry `j` of the vector. -/
theorem V1_main_v0_apply (c : Dev nD) (j : Fin 16) :
    (V1 m ρ c main_v0 : S1x16.Idx → Elt F .f32) (ValueIdx.ix2 0 j) = (m ((c : Thread nD τ).loc main_arg3) : S16.Idx → Elt F .f32) (ValueIdx.ix1 j) := by
  rw [V1_main_v0]
  refine (shapeCast_addUnit_apply (α := Elt F .f32) ![16] _ shapeCasts_S16_S1x16 (ValueIdx.ix2 0 j)).trans ?_
  exact congrArg _ (funext fun a => by match a with | ⟨0, _⟩ => rfl)
theorem V1_main_v1_apply (c : Dev nD) (j : Fin 8) :
    (V1 m ρ c main_v1 : S1x8.Idx → Elt F .f32) (ValueIdx.ix2 0 j) = (m ((c : Thread nD τ).loc main_arg5) : S8.Idx → Elt F .f32) (ValueIdx.ix1 j) := by
  rw [V1_main_v1]
  refine (shapeCast_addUnit_apply (α := Elt F .f32) ![8] _ shapeCasts_S8_S1x8 (ValueIdx.ix2 0 j)).trans ?_
  exact congrArg _ (funext fun a => by match a with | ⟨0, _⟩ => rfl)

theorem V2_main_arg1 (c : Dev nD) : V2 m ρ c main_arg1 = m ((c : Thread nD τ).loc main_arg1) :=
  (W2_arr m ρ c 0).trans (((Layer1.dat (V1 m ρ) c).arrAt_in 0 rfl _).trans ((Layer1.A_eq (V1 m ρ) c 0).trans (V1_main_arg1 m ρ c)))
theorem V2_main_arg4 (c : Dev nD) : V2 m ρ c main_arg4 = m ((c : Thread nD τ).loc main_arg4) :=
  (W2_of_ne m ρ c main_arg4 (by decide)).trans (V1_main_arg4 m ρ c)
theorem V2_main_v1 (c : Dev nD) : V2 m ρ c main_v1 = V1 m ρ c main_v1 :=
  W2_of_ne m ρ c main_v1 (by decide)
/-- The hidden layer the second region reads is what the first region's write-backs left. -/
theorem V2_main_v2 (c : Dev nD) : V2 m ρ c main_v2 = (Layer1.dat (V1 m ρ) c).arrAt 4 cfg0.N :=
  W2_arr m ρ c 4

end Cert.Kernel.Run

end
-- ==== Proof.KernelIdeal.Layer1.lean ====
import proofs.«160376_g44289702756771_cont_8to1_c_1056_3_alg».proof.Proof.Gen.KernelIdeal.Launch
import proofs.«160376_g44289702756771_cont_8to1_c_1056_3_alg».proof.Proof.Gen.KernelIdeal.Skeleton
import proofs.«160376_g44289702756771_cont_8to1_c_1056_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The first graph-convolution layer's kernel, `h = max (adj · (x · W1) + b1) 0`, one block of 400 rows of `adj` per
    grid point. At the first grid point the body also fills its scratch with the projection `x · W1`; every point
    (the first included) multiplies its block of `adj` by the scratch, adds the bias row and clamps at zero.
    So the scratch is arbitrary before the first point and holds the projection after every point: that is the
    invariant carried between points, and what each point leaves in the output's staging buffer is one and the same
    function of the point's block of `adj`, the projection and the bias. Everything here is stated for any float
    values `F`: the kernel's arithmetic stays inside the two payload terms. -/

namespace Cert.KernelIdeal.Layer1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body starts at the origin of its buffer. -/
theorem off_zero : (![0, 0] : Fin 2 → Nat) = fun _ => 0 := by funext a; fin_cases a <;> rfl

/-! ## The branch: the projection is computed at the first grid point only -/

/-- The condition of the body's one conditional, from the grid coordinates. -/
abbrev firstPoint (i : grid0.Coords) : Prop :=
  (Scalar.cmpi .ne (Scalar.extui (Scalar.cmpi .eq (BitVec.ofNat 32 (i 0).val) 0#32)) 0#32) = 1#1

/-- It holds at point 0 and nowhere else on the grid. -/
theorem firstPoint_iff : ∀ t : Fin cfg0.N, firstPoint (grid0.coords t) ↔ t.val = 0 :=
  (by decide +kernel : ∀ t : Fin grid0.N, firstPoint (grid0.coords t) ↔ t.val = 0)

/-! ## The body's two runs -/

set_option maxHeartbeats 1000000 in
/-- At the first point: from the four inputs at their contents and the output buffer and the scratch at anything, the
    body ends with the scratch at the projection of `x1` by `x2` and the output buffer at the layer's block computed
    from that projection (the load of the scratch after its own store reads what was stored). -/
theorem run_first (c : Dev nD) (E : Set ℕ) (i : grid0.Coords) (hc : firstPoint i)
    (arg1 : Memref sig .tc .vmem S400x10000 .f32) (harg1 : arg1.IsWhole) (arg2 : Memref sig .tc .vmem S10000x128 .f32) (harg2 : arg2.IsWhole)
    (arg3 : Memref sig .tc .vmem S128x16 .f32) (harg3 : arg3.IsWhole) (arg4 : Memref sig .tc .vmem S1x16 .f32) (harg4 : arg4.IsWhole)
    (arg5 : Memref sig .tc .vmem S400x16 .f32) (harg5 : arg5.IsWhole) (arg6 : Memref sig .tc .vmem S10000x16 .f32) (harg6 : arg6.IsWhole)
    (x0 : Vec F S400x10000 .f32) (x1 : Vec F S10000x128 .f32) (x2 : Vec F S128x16 .f32) (x3 : Vec F S1x16 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay2 x0 (k0_pay1 x1 x2) x3)
            ∗ owns (c : Thread nD τ) arg6 fullShare (k0_pay1 x1 x2)) -∗ K ⟨⟩))
      ⊢ wp frame (wpE (defs₀ (F := F)) Variants.none c none) E (cc0__layer1_body i arg1 harg1 arg2 harg2 arg3 harg3 arg4 harg4 arg5 harg5 arg6 harg6) K := by
  simp only [cc0__layer1_body_eq_skeleton]; unfold cc0__layer1_body_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    sl_unfold_words
    rw [View.read_writes_eq_canon _ _ _ (View.cover_of_tiled _ S400x16.size (by rfl)), View.canon_unit_zero off_zero,
      View.readCov_unit_zero _ off_zero]
    simp only [View.readAt_eq_ld, hf0, hf1, hf2, hf3, View.ld_unit_zero (S := S400x10000) off_zero, View.ld_unit_zero (S := S10000x128) off_zero, View.ld_unit_zero (S := S128x16) off_zero, View.ld_unit_zero (S := S1x16) off_zero]
  · iexists _; isplitr
    swap; · iexact H6
    ipureintro
    sl_unfold_words
    rw [View.read_writes_eq_canon _ _ _ (View.cover_of_tiled _ S10000x16.size (by rfl)), View.canon_unit_zero off_zero]
    simp only [View.readAt_eq_ld, hf0, hf1, hf2, hf3, View.ld_unit_zero (S := S10000x128) off_zero, View.ld_unit_zero (S := S128x16) off_zero]

set_option maxHeartbeats 1000000 in
/-- At any later point: the scratch, at contents `s`, is only read; the output buffer ends at the layer's block
    computed from `s`. (The other two inputs are not touched and stay with the caller.) -/
theorem run_later (c : Dev nD) (E : Set ℕ) (i : grid0.Coords) (hc : ¬firstPoint i)
    (arg1 : Memref sig .tc .vmem S400x10000 .f32) (harg1 : arg1.IsWhole) (arg2 : Memref sig .tc .vmem S10000x128 .f32) (harg2 : arg2.IsWhole)
    (arg3 : Memref sig .tc .vmem S128x16 .f32) (harg3 : arg3.IsWhole) (arg4 : Memref sig .tc .vmem S1x16 .f32) (harg4 : arg4.IsWhole)
    (arg5 : Memref sig .tc .vmem S400x16 .f32) (harg5 : arg5.IsWhole) (arg6 : Memref sig .tc .vmem S10000x16 .f32) (harg6 : arg6.IsWhole)
    (x0 : Vec F S400x10000 .f32) (s : Vec F S10000x16 .f32) (x3 : Vec F S1x16 .f32) (K : PUnit → sProp 𝕄) :
    iprop(owns (c : Thread nD τ) arg1 fullShare x0 ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg4 fullShare x3 ∗ owns (c : Thread nD τ) arg5 fullShare (k0_pay2 x0 s x3)
            ∗ owns (c : Thread nD τ) arg6 fullShare s) -∗ K ⟨⟩))
      ⊢ wp frame (wpE (defs₀ (F := F)) Variants.none c none) E (cc0__layer1_body i arg1 harg1 arg2 harg2 arg3 harg3 arg4 harg4 arg5 harg5 arg6 harg6) K := by
  simp only [cc0__layer1_body_eq_skeleton]; unfold cc0__layer1_body_skel
  unfold owns
  iintro ⟨⟨%f0, %hf0, H0⟩, ⟨%f3, %hf3, H3⟩, ⟨%d5, %f5, -, H5⟩, ⟨%f6, %hf6, H6⟩, Hk⟩
  obtain rfl := harg1.eq_unread hf0; obtain rfl := harg4.eq_unread hf3; obtain rfl := harg6.eq_unread hf6
  sl_exec (disch := exact hc)
  sl_step
  iapply Hk
  isplitl [H0]
  · iexists _; isplitr; · ipureintro; exact hf0
    iexact H0
  isplitl [H3]
  · iexists _; isplitr; · ipureintro; exact hf3
    iexact H3
  isplitl [H5]
  · iexists _; isplitr
    swap; · iexact H5
    ipureintro
    sl_unfold_words
    rw [View.read_writes_eq_canon _ _ _ (View.cover_of_tiled _ S400x16.size (by rfl)), View.canon_unit_zero off_zero]
    simp only [View.readAt_eq_ld, hf0, hf3, hf6, View.ld_unit_zero (S := S400x10000) off_zero, View.ld_unit_zero (S := S10000x16) off_zero, View.ld_unit_zero (S := S1x16) off_zero]
  · iexists _; isplitr; · ipureintro; exact hf6
    iexact H6

section Region

-- the contents of the core's buffers when the region is entered: the parameter the region is stated at
variable (V : (c : Dev nD) → (b : Ref sig .tc) → Buf (Elt F) ((c : Thread nD τ).loc b))

/-! ## The windows' blocks -/

/-- Window `w`'s block at point `t`, read off its array as the region finds it. Window 0 is the point's 400 rows of
    `adj`; windows 1, 2, 3 are the whole of `x`, `W1` and the bias row at every point. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the region-entry contents and whose body leaves the block in place. -/
theorem before_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the points leave -/

/-- The first grid point. -/
abbrev t₀ : Fin cfg0.N := ⟨0, by decide⟩

/-- The projection `x · W1`, as the first point computes it from its blocks of windows 1 and 2 (the whole arrays). -/
def proj (c : Dev nD) : Vec F S10000x16 .f32 := k0_pay1 (iblk V c 1 t₀) (iblk V c 2 t₀)

/-- The scratch the kernel carries between points, as a memref. -/
abbrev scM : Memref sig .tc .vmem S10000x16 .f32 := Memref.whole cc0_scratch0

/-- The core's scoped buffers this kernel neither stages nor names (the other call's staging buffers and scratch),
    each at some contents: carried through the region unopened. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The class's invariant with this kernel's scratch split off as a memref owned at some contents. -/
theorem PhiA_eq (c : Dev nD) :
    (Pipeline.ΦA spec0 c : sProp 𝕄)
      = iprop(iprop((∃ d, owns (c : Thread nD τ) scM fullShare d) ∗ others (F := F) c) ∗ (∃ r, prngReg c r)) := by
  unfold Pipeline.ΦA others; rw [scopedRest0_eq]; simp only [scM, owns_whole]; try rfl

/-- THE CARRIED INVARIANT before position `n`: before the first point the class's (the scratch at anything); after any
    point the scratch holds the projection. -/
def carried (c : Dev nD) : ℕ → sProp 𝕄
  | 0 => Pipeline.ΦA spec0 c
  | _ + 1 => iprop(iprop(owns (c : Thread nD τ) scM fullShare (proj V c) ∗ others (F := F) c) ∗ (∃ r, prngReg c r))

theorem carried_pos (c : Dev nD) (n : ℕ) (hn : n ≠ 0) :
    carried V c n = iprop(iprop(owns (c : Thread nD τ) scM fullShare (proj V c) ∗ others (F := F) c) ∗ (∃ r, prngReg c r)) := by
  cases n with
  | zero => exact absurd rfl hn
  | succ n => rfl

/-! ## The pipeline's proof data -/

/-- The proof data of the first layer's pipeline on core `c`: the arrays as the region finds them; after the body at
    point `t` each input's buffer at its block and the output's at the layer's block `max (adj-block · proj + b1) 0`;
    the invariant `carried`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay2 (iblk V c 0 t) (proj V c) (iblk V c 3 t)
  Φ t := carried V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) :
    (dat V c).after 4 t = k0_pay2 (iblk V c 0 t) (proj V c) (iblk V c 3 t) := by dsimp only [dat]

theorem before_0 (c : Dev nD) (t : Fin cfg0.N) (d) : (dat V c).before 0 t d = iblk V c 0 t :=
  before_of_0 V (dat V c) (A_eq V c 0) (after_0 V c) t d
theorem before_1 (c : Dev nD) (t : Fin cfg0.N) (d) : (dat V c).before 1 t d = iblk V c 1 t :=
  before_of_1 V (dat V c) (A_eq V c 1) (after_1 V c) t d
theorem before_2 (c : Dev nD) (t : Fin cfg0.N) (d) : (dat V c).before 2 t d = iblk V c 2 t :=
  before_of_2 V (dat V c) (A_eq V c 2) (after_2 V c) t d
theorem before_3 (c : Dev nD) (t : Fin cfg0.N) (d) : (dat V c).before 3 t d = iblk V c 3 t :=
  before_of_3 V (dat V c) (A_eq V c 3) (after_3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

set_option maxHeartbeats 2000000 in
/-- The body at any point. At the first the invariant hands over the scratch at anything and takes it back at the
    projection (`run_first`); at a later one it hands it over at the projection and takes it back unchanged
    (`run_later`). The inputs' buffers hold their blocks throughout; the core owes nothing. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl,
    show (dat V c).Φ t.succ = carried V c (t.val + 1) from rfl,
    show (dat V c).Φ t.castSucc = carried V c t.val from rfl,
    carried_pos V c (t.val + 1) (Nat.succ_ne_zero _),
    after_0, after_1, after_2, after_3, after_4]
  by_cases hz : t.val = 0
  · obtain rfl : t = t₀ := Fin.ext hz
    rw [show carried V c (t₀ : Fin cfg0.N).val = Pipeline.ΦA spec0 c from rfl, PhiA_eq]
    iintro ⟨⟨⟨HS, Hoth⟩, Hg⟩, Ho, ⟨%d0, H0⟩, ⟨%d1, H1⟩, ⟨%d2, H2⟩, ⟨%d3, H3⟩, ⟨%d4, H4⟩⟩
    iapply (run_first c Set.univ (grid0.coords t₀) ((firstPoint_iff t₀).mpr rfl) _ _ _ _ _ _ _ _ _ _ _ _
      (iblk V c 0 t₀) (iblk V c 1 t₀) (iblk V c 2 t₀) (iblk V c 3 t₀) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [carried_pos V c t.val hz]
    iintro ⟨⟨⟨HS, Hoth⟩, Hg⟩, Ho, ⟨%d0, H0⟩, ⟨%d1, H1⟩, ⟨%d2, H2⟩, ⟨%d3, H3⟩, ⟨%d4, H4⟩⟩
    iapply (run_later c Set.univ (grid0.coords t) (fun h => hz ((firstPoint_iff t).mp h)) _ _ _ _ _ _ _ _ _ _ _ _
      (iblk V c 0 t) (proj V c) (iblk V c 3 t) _)
    isplitl [H0]; · iexact H0
    isplitl [H3]; · iexact H3
    isplitl [H4]; · iexists _; iexact H4
    isplitl [HS]; · iexact HS
    iintro ⟨H0, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W0, bigSep_W0]
  exact sound_body V c t

/-! ## The invariant at the region's two ends -/

/-- Before the first point it is the class's invariant, -/
theorem Phi_first (c : Dev nD) : (dat V c).Φ 0 = Pipeline.ΦA spec0 c := rfl

/-- and after the last point it gives the class's invariant back: what the scratch holds is forgotten. -/
theorem Phi_last (c : Dev nD) : (dat V c).Φ (Fin.last cfg0.N) ⊢ Pipeline.ΦA spec0 c := by
  rw [show (dat V c).Φ (Fin.last cfg0.N) = carried V c cfg0.N from rfl,
    carried_pos V c cfg0.N (by rw [show cfg0.N = 25 from N_0]; decide), PhiA_eq]
  iintro ⟨⟨HS, Hoth⟩, Hg⟩
  isplitl [HS Hoth]
  · isplitl [HS]; · iexists _; iexact HS
    iexact Hoth
  iexact Hg

end Region

end Cert.KernelIdeal.Layer1

end
-- ==== Proof.KernelIdeal.Layer2.lean ====
import proofs.«160376_g44289702756771_cont_8to1_c_1056_3_alg».proof.Proof.Gen.KernelIdeal.Launch
import proofs.«160376_g44289702756771_cont_8to1_c_1056_3_alg».proof.Proof.Gen.KernelIdeal.Skeleton
import proofs.«160376_g44289702756771_cont_8to1_c_1056_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

/-! The second graph-convolution layer's kernel with its fused log-softmax, `out = logsoftmax (adj · (h · W2) + b2)`, one
    block of 400 rows of `adj` per grid point. At the first grid point the body also fills its scratch with the
    projection `h · W2` of the whole hidden layer; every point (the first included) multiplies its block of `adj` by the
    scratch, adds the bias row and normalises each row of eight logits. So the scratch is arbitrary before the first
    point and holds the projection after every point: that is the invariant carried between points, and what each
    point leaves in the output's staging buffer is one and the same function of the point's block of `adj`, the
    projection and the bias. Everything here is stated for any float values `F`: the kernel's arithmetic stays inside
    the two payload terms. -/

namespace Cert.KernelIdeal.Layer2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access of the body starts at the origin of its buffer. -/
theorem off_zero : (![0, 0] : Fin 2 → Nat) = fun _ => 0 := by funext a; fin_cases a <;> rfl

/-! ## The branch: the projection is computed at the first grid point only -/

/-- The condition of the body's one conditional, from the grid coordinates. -/
abbrev firstPoint (i : grid1.Coords) : Prop :=
  (Scalar.cmpi .ne (Scalar.extui (Scalar.cmpi .eq (BitVec.ofNat 32 (i 0).val) 0#32)) 0#32) = 1#1

/-- It holds at point 0 and nowhere else on the grid. -/
theorem firstPoint_iff : ∀ t : Fin cfg1.N, firstPoint (grid1.coords t) ↔ t.val = 0 :=
  (by decide +kernel : ∀ t : Fin grid1.N, firstPoint (grid1.coords t) ↔ t.val = 0)

/-! ## The body's two runs -/

set_option maxHeartbeats 1000000 in
/-- At the first point: from the four inputs at their contents and the output buffer and the scratch at anything, the
    body ends with the scratch at the projection of `x1` by `x2` and the output buffer at the normalised block computed
    from that projection (the load of the scratch after its own store reads what was stored). -/
theorem run_first (c : Dev nD) (E : Set ℕ) (i : grid1.Coords) (hc : firstPoint i)
    (arg1 : Memref sig .tc .vmem S400x10000 .f32) (harg1 : arg1.IsWhole) (arg2 : Memref sig .tc .vmem S10000x16 .f32) (harg2 : arg2.IsWhole)
    (arg3 : Memref sig .tc .vmem S16x8 .f32) (harg3 : arg3.IsWhole) (arg4 : Memref sig .tc .vmem S1x8 .f32) (harg4 : arg4.IsWhole)
    (arg5 : Memref sig .tc .vmem S400x8 .f32) (harg5 : arg5.IsWhole) (arg6 : Memref sig .tc .vmem S10000x8 .f32) (harg6 : arg6.IsWhole)
    (x0 : Vec F S400x10000 .f32) (x1 : Vec F S10000x16 .f32) (x2 : Vec F S16x8 .f32) (x3 : Vec F S1x8 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k1_pay2 x0 (k1_pay1 x1 x2) x3)
            ∗ owns (c : Thread nD τ) arg6 fullShare (k1_pay1 x1 x2)) -∗ K ⟨⟩))
      ⊢ wp frame (wpE (defs₀ (F := F)) Variants.none c none) E (cc1__layer2_body i arg1 harg1 arg2 harg2 arg3 harg3 arg4 harg4 arg5 harg5 arg6 harg6) K := by
  simp only [cc1__layer2_body_eq_skeleton]; unfold cc1__layer2_body_skel
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H5]
  · iexists _; isplitr
    swap; · iexact H5
    ipureintro
    sl_unfold_words
    rw [View.read_writes_eq_canon _ _ _ (View.cover_of_tiled _ S400x8.size (by rfl)), View.canon_unit_zero off_zero,
      View.readCov_unit_zero _ off_zero]
    simp only [View.readAt_eq_ld, hf0, hf1, hf2, hf3, View.ld_unit_zero (S := S400x10000) off_zero, View.ld_unit_zero (S := S10000x16) off_zero, View.ld_unit_zero (S := S16x8) off_zero, View.ld_unit_zero (S := S1x8) off_zero]
  · iexists _; isplitr
    swap; · iexact H6
    ipureintro
    sl_unfold_words
    rw [View.read_writes_eq_canon _ _ _ (View.cover_of_tiled _ S10000x8.size (by rfl)), View.canon_unit_zero off_zero]
    simp only [View.readAt_eq_ld, hf0, hf1, hf2, hf3, View.ld_unit_zero (S := S10000x16) off_zero, View.ld_unit_zero (S := S16x8) off_zero]

set_option maxHeartbeats 1000000 in
/-- At any later point: the scratch, at contents `s`, is only read; the output buffer ends at the layer's block
    computed from `s`. (The other two inputs are not touched and stay with the caller.) -/
theorem run_later (c : Dev nD) (E : Set ℕ) (i : grid1.Coords) (hc : ¬firstPoint i)
    (arg1 : Memref sig .tc .vmem S400x10000 .f32) (harg1 : arg1.IsWhole) (arg2 : Memref sig .tc .vmem S10000x16 .f32) (harg2 : arg2.IsWhole)
    (arg3 : Memref sig .tc .vmem S16x8 .f32) (harg3 : arg3.IsWhole) (arg4 : Memref sig .tc .vmem S1x8 .f32) (harg4 : arg4.IsWhole)
    (arg5 : Memref sig .tc .vmem S400x8 .f32) (harg5 : arg5.IsWhole) (arg6 : Memref sig .tc .vmem S10000x8 .f32) (harg6 : arg6.IsWhole)
    (x0 : Vec F S400x10000 .f32) (s : Vec F S10000x8 .f32) (x3 : Vec F S1x8 .f32) (K : PUnit → sProp 𝕄) :
    iprop(owns (c : Thread nD τ) arg1 fullShare x0 ∗ owns (c : Thread nD τ) arg4 fullShare x3 ∗ (∃ d, owns (c : Thread nD τ) arg5 fullShare d) ∗ owns (c : Thread nD τ) arg6 fullShare s
        ∗ (iprop(owns (c : Thread nD τ) arg1 fullShare x0 ∗ owns (c : Thread nD τ) arg4 fullShare x3 ∗ owns (c : Thread nD τ) arg5 fullShare (k1_pay2 x0 s x3)
            ∗ owns (c : Thread nD τ) arg6 fullShare s) -∗ K ⟨⟩))
      ⊢ wp frame (wpE (defs₀ (F := F)) Variants.none c none) E (cc1__layer2_body i arg1 harg1 arg2 harg2 arg3 harg3 arg4 harg4 arg5 harg5 arg6 harg6) K := by
  simp only [cc1__layer2_body_eq_skeleton]; unfold cc1__layer2_body_skel
  unfold owns
  iintro ⟨⟨%f0, %hf0, H0⟩, ⟨%f3, %hf3, H3⟩, ⟨%d5, %f5, -, H5⟩, ⟨%f6, %hf6, H6⟩, Hk⟩
  obtain rfl := harg1.eq_unread hf0; obtain rfl := harg4.eq_unread hf3; obtain rfl := harg6.eq_unread hf6
  sl_exec (disch := exact hc)
  sl_step
  iapply Hk
  isplitl [H0]
  · iexists _; isplitr; · ipureintro; exact hf0
    iexact H0
  isplitl [H3]
  · iexists _; isplitr; · ipureintro; exact hf3
    iexact H3
  isplitl [H5]
  · iexists _; isplitr
    swap; · iexact H5
    ipureintro
    sl_unfold_words
    rw [View.read_writes_eq_canon _ _ _ (View.cover_of_tiled _ S400x8.size (by rfl)), View.canon_unit_zero off_zero]
    simp only [View.readAt_eq_ld, hf0, hf3, hf6, View.ld_unit_zero (S := S400x10000) off_zero, View.ld_unit_zero (S := S10000x8) off_zero, View.ld_unit_zero (S := S1x8) off_zero]
  · iexists _; isplitr; · ipureintro; exact hf6
    iexact H6

section Region

-- the contents of the core's buffers when the region is entered: the parameter the region is stated at
variable (V : (c : Dev nD) → (b : Ref sig .tc) → Buf (Elt F) ((c : Thread nD τ).loc b))

/-! ## The windows' blocks -/

/-- Window `w`'s block at point `t`, read off its array as the region finds it. Window 0 is the point's 400 rows of
    `adj`; windows 1, 2, 3 are the whole of the hidden layer `h`, `W2` and the bias row at every point. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is the region-entry contents and whose body leaves the block in place. -/
theorem before_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## What the points leave -/

/-- The first grid point. -/
abbrev t₀ : Fin cfg1.N := ⟨0, by decide⟩

/-- The projection `h · W2`, as the first point computes it from its blocks of windows 1 and 2 (the whole arrays). -/
def proj (c : Dev nD) : Vec F S10000x8 .f32 := k1_pay1 (iblk V c 1 t₀) (iblk V c 2 t₀)

/-- The scratch the kernel carries between points, as a memref. -/
abbrev scM : Memref sig .tc .vmem S10000x8 .f32 := Memref.whole cc1_scratch0

/-- The core's scoped buffers this kernel neither stages nor names (the other call's staging buffers and scratch),
    each at some contents: carried through the region unopened. -/
def others (c : Dev nD) : sProp 𝕄 :=
  Pipeline.scopedRestBut (Ix := Unit) (Name := ℕ) (U := UR sig nD τ) (Lvl := ℕ) (Val := Elt F) spec1 c [cc1_scratch0]

/-- The class's invariant with this kernel's scratch split off as a memref owned at some contents. -/
theorem PhiA_eq (c : Dev nD) :
    (Pipeline.ΦA spec1 c : sProp 𝕄)
      = iprop(iprop((∃ d, owns (c : Thread nD τ) scM fullShare d) ∗ others (F := F) c) ∗ (∃ r, prngReg c r)) := by
  unfold Pipeline.ΦA others
  rw [Pipeline.scopedRest_split_of_list spec1 c [cc1_scratch0] (by decide) (by decide)]
  simp only [Idealize.SL.BI.bigSepL_singleton, scM, owns_whole]; try rfl

/-- THE CARRIED INVARIANT before position `n`: before the first point the class's (the scratch at anything); after any
    point the scratch holds the projection. -/
def carried (c : Dev nD) : ℕ → sProp 𝕄
  | 0 => Pipeline.ΦA spec1 c
  | _ + 1 => iprop(iprop(owns (c : Thread nD τ) scM fullShare (proj V c) ∗ others (F := F) c) ∗ (∃ r, prngReg c r))

theorem carried_pos (c : Dev nD) (n : ℕ) (hn : n ≠ 0) :
    carried V c n = iprop(iprop(owns (c : Thread nD τ) scM fullShare (proj V c) ∗ others (F := F) c) ∗ (∃ r, prngReg c r)) := by
  cases n with
  | zero => exact absurd rfl hn
  | succ n => rfl

/-! ## The pipeline's proof data -/

/-- The proof data of the first layer's pipeline on core `c`: the arrays as the region finds them; after the body at
    point `t` each input's buffer at its block and the output's at the layer's block `logsoftmax (adj-block · proj + b2)`;
    the invariant `carried`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => k1_pay2 (iblk V c 0 t) (proj V c) (iblk V c 3 t)
  Φ t := carried V c t.val
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) :
    (dat V c).after 4 t = k1_pay2 (iblk V c 0 t) (proj V c) (iblk V c 3 t) := by dsimp only [dat]

theorem before_0 (c : Dev nD) (t : Fin cfg1.N) (d) : (dat V c).before 0 t d = iblk V c 0 t :=
  before_of_0 V (dat V c) (A_eq V c 0) (after_0 V c) t d
theorem before_1 (c : Dev nD) (t : Fin cfg1.N) (d) : (dat V c).before 1 t d = iblk V c 1 t :=
  before_of_1 V (dat V c) (A_eq V c 1) (after_1 V c) t d
theorem before_2 (c : Dev nD) (t : Fin cfg1.N) (d) : (dat V c).before 2 t d = iblk V c 2 t :=
  before_of_2 V (dat V c) (A_eq V c 2) (after_2 V c) t d
theorem before_3 (c : Dev nD) (t : Fin cfg1.N) (d) : (dat V c).before 3 t d = iblk V c 3 t :=
  before_of_3 V (dat V c) (A_eq V c 3) (after_3 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

set_option maxHeartbeats 2000000 in
/-- The body at any point. At the first the invariant hands over the scratch at anything and takes it back at the
    projection (`run_first`); at a later one it hands it over at the projection and takes it back unchanged
    (`run_later`). The inputs' buffers hold their blocks throughout; the core owes nothing. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).owesAt () t.succ = (dat V c).owesAt () t.castSucc from rfl,
    show (dat V c).Φ t.succ = carried V c (t.val + 1) from rfl,
    show (dat V c).Φ t.castSucc = carried V c t.val from rfl,
    carried_pos V c (t.val + 1) (Nat.succ_ne_zero _),
    after_0, after_1, after_2, after_3, after_4]
  by_cases hz : t.val = 0
  · obtain rfl : t = t₀ := Fin.ext hz
    rw [show carried V c (t₀ : Fin cfg1.N).val = Pipeline.ΦA spec1 c from rfl, PhiA_eq]
    iintro ⟨⟨⟨HS, Hoth⟩, Hg⟩, Ho, ⟨%d0, H0⟩, ⟨%d1, H1⟩, ⟨%d2, H2⟩, ⟨%d3, H3⟩, ⟨%d4, H4⟩⟩
    iapply (run_first c Set.univ (grid1.coords t₀) ((firstPoint_iff t₀).mpr rfl) _ _ _ _ _ _ _ _ _ _ _ _
      (iblk V c 0 t₀) (iblk V c 1 t₀) (iblk V c 2 t₀) (iblk V c 3 t₀) _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4
  · rw [carried_pos V c t.val hz]
    iintro ⟨⟨⟨HS, Hoth⟩, Hg⟩, Ho, ⟨%d0, H0⟩, ⟨%d1, H1⟩, ⟨%d2, H2⟩, ⟨%d3, H3⟩, ⟨%d4, H4⟩⟩
    iapply (run_later c Set.univ (grid1.coords t) (fun h => hz ((firstPoint_iff t).mp h)) _ _ _ _ _ _ _ _ _ _ _ _
      (iblk V c 0 t) (proj V c) (iblk V c 3 t) _)
    isplitl [H0]; · iexact H0
    isplitl [H3]; · iexact H3
    isplitl [H4]; · iexists _; iexact H4
    isplitl [HS]; · iexact HS
    iintro ⟨H0, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- Before the first point it is the class's invariant, -/
theorem Phi_first (c : Dev nD) : (dat V c).Φ 0 = Pipeline.ΦA spec1 c := rfl

/-- and after the last point it gives the class's invariant back: what the scratch holds is forgotten. -/
theorem Phi_last (c : Dev nD) : (dat V c).Φ (Fin.last cfg1.N) ⊢ Pipeline.ΦA spec1 c := by
  rw [show (dat V c).Φ (Fin.last cfg1.N) = carried V c cfg1.N from rfl,
    carried_pos V c cfg1.N (by rw [show cfg1.N = 25 from N_1]; decide), PhiA_eq]
  iintro ⟨⟨HS, Hoth⟩, Hg⟩
  isplitl [HS Hoth]
  · isplitl [HS]; · iexists _; iexact HS
    iexact Hoth
  iexact Hg

end Region

end Cert.KernelIdeal.Layer2

end
-- ==== Proof.KernelIdeal.Run.lean ====
import proofs.«160376_g44289702756771_cont_8to1_c_1056_3_alg».proof.Proof.KernelIdeal.Layer1
import proofs.«160376_g44289702756771_cont_8to1_c_1056_3_alg».proof.Proof.KernelIdeal.Layer2
import Idealize.ShloMosaic.Lib.StableHlo.Run
import Idealize.ShloMosaic.Lib.ValueIdx

set_option maxRecDepth 16384

noncomputable section

/-! The run of @main: two reshapes of the bias vectors on the host, then the first layer's region, then the second's.
    Between two items every unscoped buffer of a core is held at a valuation: the launch memory; that after the two
    reshapes; then a region's arrays at what its write-backs leave (the inputs as entered, the output folded block by
    block) and every other buffer as entered. The second region is entered straight from what the first leaves, so
    its window on the hidden layer reads the first region's output array. Every weakly fair execution ends with
    every unscoped buffer at the last valuation: the result array at the second region's output, each argument
    array — no item writes one — at its launch contents. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the two reshapes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit (the second's entry): its arrays at what the pipeline leaves, every other buffer as entered. -/
def W2 (c : Dev nD) : Valuation τ sig (Elt F) :=
  Pipeline.withArrays spec0 c (W1 m ρ c) fun w => (Layer1.dat (V1 m ρ) c).arrAt w cfg0.N
theorem W2_arr (c : Dev nD) (w : Fin cfg0.W) :
    W2 m ρ c (Proc.devRef .tc (Pipeline.arrRef spec0 w)) = (Layer1.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Layer1.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- At the second region's exit. -/
def W3 (c : Dev nD) : Valuation τ sig (Elt F) :=
  Pipeline.withArrays spec1 c (W2 m ρ c) fun w => (Layer2.dat (V2 m ρ) c).arrAt w cfg1.N
theorem W3_arr (c : Dev nD) (w : Fin cfg1.W) :
    W3 m ρ c (Proc.devRef .tc (Pipeline.arrRef spec1 w)) = (Layer2.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Layer2.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: a region reads an argument through an input window or bypasses it, and the
    reshapes write only their own results -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 1).trans (((Layer1.dat (V1 m ρ) c).arrAt_in 1 rfl _).trans (Layer1.A_eq (V1 m ρ) c 1))
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 0).trans (((Layer2.dat (V2 m ρ) c).arrAt_in 0 rfl _).trans (Layer2.A_eq (V2 m ρ) c 0))
    _ = W1 m ρ c (Proc.devRef .tc main_arg1) := (W2_arr m ρ c 0).trans (((Layer1.dat (V1 m ρ) c).arrAt_in 0 rfl _).trans (Layer1.A_eq (V1 m ρ) c 0))
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 2).trans (((Layer1.dat (V1 m ρ) c).arrAt_in 2 rfl _).trans (Layer1.A_eq (V1 m ρ) c 2))
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((Layer2.dat (V2 m ρ) c).arrAt_in 2 rfl _).trans (Layer2.A_eq (V2 m ρ) c 2))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-! ## The proof data family and the thread state -/

/-- No pipeline has a prefetched table. -/
abbrev adm : (p : Fin 2) → (pcfgs (F := F) p).Adm := fun p => (cfgs p).toPCfg_adm
/-- Each pipeline's proof data at its region's entry contents (a literal match, so that the pinned configuration at a
    numeral reduces to the printed one). -/
def pdats : (p : Fin 2) → (c : Dev nD) → Dat τ (Elt F) Unit ℕ (UR sig nD τ) ℕ (Pipeline.pin (pcfgs (F := F)) adm p) c
  | ⟨0, _⟩ => fun c => Layer1.dat (V1 m ρ) c
  | ⟨1, _⟩ => fun c => Layer2.dat (V2 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The reshapes allocate nothing. -/
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register and the scoped rest go into
    the carried invariant at its first position (the class's) and come back from its last (the scratch's contents
    forgotten); nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Layer1.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from Layer1.Phi_last (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W2`, left at `W3`. Its arrays are split
    out of the unscoped buffers and put back at the exit contents; the generator register and the scoped rest go into
    the carried invariant at its first position (the class's) and come back from its last (the scratch's contents
    forgotten); nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Layer2.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from Layer2.Phi_last (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, with
    the result array at what the second region's write-backs leave and every argument array as launched. -/
theorem run_all : θ_run defs (onTc (τ := τ) (main (F := F))) ⟨m, fun _ => 0, ρ⟩ (fun r => ∀ c : Dev nD,
      r.2.mem ((c.tc : Thread nD τ).loc main_v3) = (Layer2.dat (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v3 (by decide))).trans (W3_arr m ρ c 4),
        (h c _ (mem_uc main_arg0 (by decide))).trans (W3_main_arg0 m ρ c),
        (h c _ (mem_uc main_arg1 (by decide))).trans (W3_main_arg1 m ρ c),
        (h c _ (mem_uc main_arg2 (by decide))).trans (W3_main_arg2 m ρ c),
        (h c _ (mem_uc main_arg3 (by decide))).trans (W3_main_arg3 m ρ c),
        (h c _ (mem_uc main_arg4 (by decide))).trans (W3_main_arg4 m ρ c),
        (h c _ (mem_uc main_arg5 (by decide))).trans (W3_main_arg5 m ρ c)⟩)

/-- THE FRAME: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_all m ρ)

/-! ## What the regions find

    The first region is entered after the two reshapes: the arguments are as launched and the two bias rows are the
    bias vectors read as one-row matrices. The second region finds, besides, the first region's output array in
    `main_v2`. -/

theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg1 (c : Dev nD) : V1 m ρ c main_arg1 = m ((c : Thread nD τ).loc main_arg1) :=
  (StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_main_arg4 (c : Dev nD) : V1 m ρ c main_arg4 = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

/-- The first bias row is the first bias vector reshaped. -/
theorem V1_main_v0 (c : Dev nD) :
    (V1 m ρ c main_v0 : S1x16.Idx → Elt F .f32) = shapeCast S1x16 (m ((c : Thread nD τ).loc main_arg3)) shapeCasts_S16_S1x16 := by
  show StableHlo.after hostOps0 (W0 m ρ c) (Proc.devRef .tc main_v0) = _
  after_results; rfl
/-- The second bias row is the second bias vector reshaped. -/
theorem V1_main_v1 (c : Dev nD) :
    (V1 m ρ c main_v1 : S1x8.Idx → Elt F .f32) = shapeCast S1x8 (m ((c : Thread nD τ).loc main_arg5)) shapeCasts_S8_S1x8 := by
  show StableHlo.after hostOps0 (W0 m ρ c) (Proc.devRef .tc main_v1) = _
  after_results; rfl

/-- Entry `j` of the one-row matrix is entry `j` of the vector. -/
theorem V1_main_v0_apply (c : Dev nD) (j : Fin 16) :
    (V1 m ρ c main_v0 : S1x16.Idx → Elt F .f32) (ValueIdx.ix2 0 j) = (m ((c : Thread nD τ).loc main_arg3) : S16.Idx → Elt F .f32) (ValueIdx.ix1 j) := by
  rw [V1_main_v0]
  refine (shapeCast_addUnit_apply (α := Elt F .f32) ![16] _ shapeCasts_S16_S1x16 (ValueIdx.ix2 0 j)).trans ?_
  exact congrArg _ (funext fun a => by match a with | ⟨0, _⟩ => rfl)
theorem V1_main_v1_apply (c : Dev nD) (j : Fin 8) :
    (V1 m ρ c main_v1 : S1x8.Idx → Elt F .f32) (ValueIdx.ix2 0 j) = (m ((c : Thread nD τ).loc main_arg5) : S8.Idx → Elt F .f32) (ValueIdx.ix1 j) := by
  rw [V1_main_v1]
  refine (shapeCast_addUnit_apply (α := Elt F .f32) ![8] _ shapeCasts_S8_S1x8 (ValueIdx.ix2 0 j)).trans ?_
  exact congrArg _ (funext fun a => by match a with | ⟨0, _⟩ => rfl)

theorem V2_main_arg1 (c : Dev nD) : V2 m ρ c main_arg1 = m ((c : Thread nD τ).loc main_arg1) :=
  (W2_arr m ρ c 0).trans (((Layer1.dat (V1 m ρ) c).arrAt_in 0 rfl _).trans ((Layer1.A_eq (V1 m ρ) c 0).trans (V1_main_arg1 m ρ c)))
theorem V2_main_arg4 (c : Dev nD) : V2 m ρ c main_arg4 = m ((c : Thread nD τ).loc main_arg4) :=
  (W2_of_ne m ρ c main_arg4 (by decide)).trans (V1_main_arg4 m ρ c)
theorem V2_main_v1 (c : Dev nD) : V2 m ρ c main_v1 = V1 m ρ c main_v1 :=
  W2_of_ne m ρ c main_v1 (by decide)
/-- The hidden layer the second region reads is what the first region's write-backs left. -/
theorem V2_main_v2 (c : Dev nD) : V2 m ρ c main_v2 = (Layer1.dat (V1 m ρ) c).arrAt 4 cfg0.N :=
  W2_arr m ρ c 4

end Cert.KernelIdeal.Run

end
-- ==== Proof.Spec.lean ====
import Idealize.ShloMosaic.PureOps.Ideal
import Idealize.ShloMosaic.PureOps.Ideal.Laws
import Idealize.ShloMosaic.Lib.ValueIdx

/-! The function both programs compute, over the extended reals, index by index: a two-layer graph convolution
    followed by a row-wise log-softmax.
      P1 = x · W1,   H = max (adj · P1 + b1) 0,   P2 = H · W2,   Z = adj · P2 + b2,
    and each row `v = Z i` of eight logits is normalised. The two programs spell the normalisation differently:
      the kernel      `v c − (log (∑ exp (v · − m)) + m)`        with `m` the row's maximum,
      the reference   `(v c − m') − log (∑ exp (v · − m'))`     with `m' = max ⊥ m`.
    On a row of finite reals the two agree; that, and the finiteness of `Z` when the inputs are finite, is all the
    algebra there is (stated in SpecLaws). Arrays are plain curried functions of `Fin` indices here; the modules
    that meet a program read its arrays at `ValueIdx.ix2 i j` / `ValueIdx.ix1 j`. -/

noncomputable section

namespace Cert.Spec

open Idealize.ShloMosaic

/-- The first projection `x · W1`. -/
def proj1 (x : Fin 10000 → Fin 128 → EReal) (w1 : Fin 128 → Fin 16 → EReal) (k : Fin 10000) (j : Fin 16) : EReal :=
  ∑ f : Fin 128, x k f * w1 f j

/-- The hidden layer `max (adj · p + b1) 0` over a projection `p`. -/
def hid (adj : Fin 10000 → Fin 10000 → EReal) (p : Fin 10000 → Fin 16 → EReal) (b1 : Fin 16 → EReal)
    (i : Fin 10000) (j : Fin 16) : EReal :=
  max ((∑ k : Fin 10000, adj i k * p k j) + b1 j) 0

/-- The second projection `h · W2`. -/
def proj2 (h : Fin 10000 → Fin 16 → EReal) (w2 : Fin 16 → Fin 8 → EReal) (k : Fin 10000) (c : Fin 8) : EReal :=
  ∑ j : Fin 16, h k j * w2 j c

/-- The logits `adj · q + b2` over a projection `q`. -/
def logits (adj : Fin 10000 → Fin 10000 → EReal) (q : Fin 10000 → Fin 8 → EReal) (b2 : Fin 8 → EReal)
    (i : Fin 10000) (c : Fin 8) : EReal :=
  (∑ k : Fin 10000, adj i k * q k c) + b2 c

/-- A row's maximum, folded from the bottom element. -/
def rowMax (v : Fin 8 → EReal) : EReal := (Finset.univ : Finset (Fin 8)).fold max ⊥ v

/-- The kernel's log-softmax of a row. -/
def rowK (v : Fin 8 → EReal) (c : Fin 8) : EReal :=
  v c - (Ideal.log (∑ c' : Fin 8, Ideal.exp (v c' - rowMax v)) + rowMax v)

/-- The reference's log-softmax of a row. -/
def rowR (v : Fin 8 → EReal) (c : Fin 8) : EReal :=
  (v c - max ⊥ (rowMax v)) - Ideal.log (∑ c' : Fin 8, Ideal.exp (v c' - max ⊥ (rowMax v)))

/-- The logits of the whole network, from the six argument arrays. -/
def zOf (x : Fin 10000 → Fin 128 → EReal) (adj : Fin 10000 → Fin 10000 → EReal) (w1 : Fin 128 → Fin 16 → EReal)
    (b1 : Fin 16 → EReal) (w2 : Fin 16 → Fin 8 → EReal) (b2 : Fin 8 → EReal) : Fin 10000 → Fin 8 → EReal :=
  logits adj (proj2 (hid adj (proj1 x w1) b1) w2) b2

/-- What the kernel computes at row `i`, class `c`. -/
def outK (x : Fin 10000 → Fin 128 → EReal) (adj : Fin 10000 → Fin 10000 → EReal) (w1 : Fin 128 → Fin 16 → EReal)
    (b1 : Fin 16 → EReal) (w2 : Fin 16 → Fin 8 → EReal) (b2 : Fin 8 → EReal) (i : Fin 10000) (c : Fin 8) : EReal :=
  rowK (zOf x adj w1 b1 w2 b2 i) c

/-- What the reference computes there. -/
def outR (x : Fin 10000 → Fin 128 → EReal) (adj : Fin 10000 → Fin 10000 → EReal) (w1 : Fin 128 → Fin 16 → EReal)
    (b1 : Fin 16 → EReal) (w2 : Fin 16 → Fin 8 → EReal) (b2 : Fin 8 → EReal) (i : Fin 10000) (c : Fin 8) : EReal :=
  rowR (zOf x adj w1 b1 w2 b2 i) c

/-- A table of extended reals all of whose entries are real numbers. -/
def Finite2 {α β : Type} (f : α → β → EReal) : Prop := ∀ a b, ∃ r : ℝ, f a b = (r : EReal)

/-- The same for a row. -/
def Finite1 {α : Type} (f : α → EReal) : Prop := ∀ a, ∃ r : ℝ, f a = (r : EReal)

end Cert.Spec

end
-- ==== Proof.KernelIdeal.Payloads.lean ====
import proofs.«160376_g44289702756771_cont_8to1_c_1056_3_alg».proof.Proof.Gen.KernelIdeal.Skeleton
import proofs.«160376_g44289702756771_cont_8to1_c_1056_3_alg».proof.Proof.Spec
import Idealize.ShloMosaic.Lib.ValueIdx
import Idealize.ShloMosaic.Lib.Pipeline.Value
import Idealize.ShloMosaic.Lib.ValueLayout
import Idealize.ShloMosaic.PureOps.Ideal.Laws

/-! The four payloads of the two kernel bodies, read at one index over the extended reals.
    Each body stores two values: on its first grid point the projection of the whole feature array
    (`x · W1`, then `h · W2`), and on every grid point one block of 400 rows of the layer
    (`max (adj · p + b1) 0`, then the row-wise log-softmax of `adj · q + b2`). A product into the zero
    accumulator is the sum over the contracted coordinate; the bias row is broadcast down the rows; a row's
    maximum and a row's sum of exponentials are lane reductions kept as a column and broadcast back along the row. -/

noncomputable section

namespace Cert.KernelIdeal.Payloads

open Cert.KernelIdeal Cert.KernelIdeal.Gen Idealize.ShloMosaic Idealize.ShloMosaic.ValueIdx

/-! ## The four products, each into the zero accumulator

Every product contracts the left operand's axis 1 with the right operand's axis 0, so the left operand is read at
`(p, k)` and the right at `(k, q)`: per product, one lemma per operand axis, then the product at `(p, q)` as the
sum over `k`. -/

/-! ### `x · W1`: `[10000, 128] × [128, 16]` -/

theorem lhs_proj1_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhs_proj1_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhs_proj1_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhs_proj1_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The product at row `p`, column `q`: the sum over the 128 features. -/
theorem matmul_proj1 (l : Vec Ideal S10000x128 .f32) (r : Vec Ideal S128x16 .f32) (p : Fin 10000) (q : Fin 16) :
    matmul (F := Ideal) (φ₁ := .f32) (φ₂ := .f32) dot_S10000x128_S128x16_S10000x16_1_0_0_1_n_n none l r (constant S10000x16 .f32 0x00000000#32) (ix2 p q)
      = ∑ k : Fin 128, l (ix2 p k) * r (ix2 k q) := by
  simp only [matmul]
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx (ix2 p q) ((contrEquiv1 dot_S10000x128_S128x16_S10000x16_1_0_0_1_n_n 128 rfl rfl).symm k) = ix2 p k := funext fun a => Fin.ext (by
    match a with
    | ⟨0, _⟩ => exact lhs_proj1_0 _ _
    | ⟨1, _⟩ => exact (lhs_proj1_1 _ _).trans hk)
  have er : dot_S10000x128_S128x16_S10000x16_1_0_0_1_n_n.rhsIdx (ix2 p q) ((contrEquiv1 dot_S10000x128_S128x16_S10000x16_1_0_0_1_n_n 128 rfl rfl).symm k) = ix2 k q := funext fun a => Fin.ext (by
    match a with
    | ⟨0, _⟩ => exact (rhs_proj1_0 _ _).trans hk
    | ⟨1, _⟩ => exact rhs_proj1_1 _ _)
  rw [el, er]

/-! ### `adj · p` on a block of rows: `[400, 10000] × [10000, 16]` -/

theorem lhs_agg1_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_agg1_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_agg1_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_agg1_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The product at row `p` of the block, column `q`: the sum over the 10000 nodes. -/
theorem matmul_agg1 (l : Vec Ideal S400x10000 .f32) (r : Vec Ideal S10000x16 .f32) (p : Fin 400) (q : Fin 16) :
    matmul (F := Ideal) (φ₁ := .f32) (φ₂ := .f32) dot_S400x10000_S10000x16_S400x16_1_0_0_1_n_n none l r (constant S400x16 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx (ix2 p q) ((contrEquiv1 dot_S400x10000_S10000x16_S400x16_1_0_0_1_n_n 10000 rfl rfl).symm k) = ix2 p k := funext fun a => Fin.ext (by
    match a with
    | ⟨0, _⟩ => exact lhs_agg1_0 _ _
    | ⟨1, _⟩ => exact (lhs_agg1_1 _ _).trans hk)
  have er : dot_S400x10000_S10000x16_S400x16_1_0_0_1_n_n.rhsIdx (ix2 p q) ((contrEquiv1 dot_S400x10000_S10000x16_S400x16_1_0_0_1_n_n 10000 rfl rfl).symm k) = ix2 k q := funext fun a => Fin.ext (by
    match a with
    | ⟨0, _⟩ => exact (rhs_agg1_0 _ _).trans hk
    | ⟨1, _⟩ => exact rhs_agg1_1 _ _)
  rw [el, er]

/-! ### `h · W2`: `[10000, 16] × [16, 8]` -/

theorem lhs_proj2_0 (i : S10000x8.Idx) (q : dot_S10000x16_S16x8_S10000x8_1_0_0_1_n_n.contr.Idx) :
    (dot_S10000x16_S16x8_S10000x8_1_0_0_1_n_n.lhsIdx i q 0).val = (i 0).val := by
  unfold DotDims.lhsIdx
  rw [dif_neg (show ¬(0 : Fin S10000x16.rank) ∈ dot_S10000x16_S16x8_S10000x8_1_0_0_1_n_n.lhsBatch by decide), dif_pos (show (0 : Fin S10000x16.rank) ∈ dot_S10000x16_S16x8_S10000x8_1_0_0_1_n_n.lhsNonContracting by decide)]
  rfl
theorem lhs_proj2_1 (i : S10000x8.Idx) (q : dot_S10000x16_S16x8_S10000x8_1_0_0_1_n_n.contr.Idx) :
    (dot_S10000x16_S16x8_S10000x8_1_0_0_1_n_n.lhsIdx i q 1).val = (q ⟨0, by decide⟩).val :=
  dot_S10000x16_S16x8_S10000x8_1_0_0_1_n_n.lhsIdx_val_of_single rfl i q
theorem rhs_proj2_0 (i : S10000x8.Idx) (q : dot_S10000x16_S16x8_S10000x8_1_0_0_1_n_n.contr.Idx) :
    (dot_S10000x16_S16x8_S10000x8_1_0_0_1_n_n.rhsIdx i q 0).val = (q ⟨0, by decide⟩).val :=
  dot_S10000x16_S16x8_S10000x8_1_0_0_1_n_n.rhsIdx_val_of_single rfl i q
theorem rhs_proj2_1 (i : S10000x8.Idx) (q : dot_S10000x16_S16x8_S10000x8_1_0_0_1_n_n.contr.Idx) :
    (dot_S10000x16_S16x8_S10000x8_1_0_0_1_n_n.rhsIdx i q 1).val = (i 1).val := by
  unfold DotDims.rhsIdx
  rw [dif_neg (show ¬(1 : Fin S16x8.rank) ∈ dot_S10000x16_S16x8_S10000x8_1_0_0_1_n_n.rhsBatch by decide), dif_pos (show (1 : Fin S16x8.rank) ∈ dot_S10000x16_S16x8_S10000x8_1_0_0_1_n_n.rhsNonContracting by decide)]
  rfl

/-- The product at row `p`, class `q`: the sum over the 16 hidden units. -/
theorem matmul_proj2 (l : Vec Ideal S10000x16 .f32) (r : Vec Ideal S16x8 .f32) (p : Fin 10000) (q : Fin 8) :
    matmul (F := Ideal) (φ₁ := .f32) (φ₂ := .f32) dot_S10000x16_S16x8_S10000x8_1_0_0_1_n_n none l r (constant S10000x8 .f32 0x00000000#32) (ix2 p q)
      = ∑ k : Fin 16, l (ix2 p k) * r (ix2 k q) := by
  simp only [matmul]
  rw [Ideal.matmul_constant_zero_apply, ← Equiv.sum_comp (contrEquiv1 dot_S10000x16_S16x8_S10000x8_1_0_0_1_n_n 16 rfl rfl).symm]
  refine Finset.sum_congr rfl fun k _ => ?_
  have hk := contrEquiv1_symm_val dot_S10000x16_S16x8_S10000x8_1_0_0_1_n_n 16 rfl rfl k
  have el : dot_S10000x16_S16x8_S10000x8_1_0_0_1_n_n.lhsIdx (ix2 p q) ((contrEquiv1 dot_S10000x16_S16x8_S10000x8_1_0_0_1_n_n 16 rfl rfl).symm k) = ix2 p k := funext fun a => Fin.ext (by
    match a with
    | ⟨0, _⟩ => exact lhs_proj2_0 _ _
    | ⟨1, _⟩ => exact (lhs_proj2_1 _ _).trans hk)
  have er : dot_S10000x16_S16x8_S10000x8_1_0_0_1_n_n.rhsIdx (ix2 p q) ((contrEquiv1 dot_S10000x16_S16x8_S10000x8_1_0_0_1_n_n 16 rfl rfl).symm k) = ix2 k q := funext fun a => Fin.ext (by
    match a with
    | ⟨0, _⟩ => exact (rhs_proj2_0 _ _).trans hk
    | ⟨1, _⟩ => exact rhs_proj2_1 _ _)
  rw [el, er]

/-! ### `adj · q` on a block of rows: `[400, 10000] × [10000, 8]` -/

theorem lhs_agg2_0 (i : S400x8.Idx) (q : dot_S400x10000_S10000x8_S400x8_1_0_0_1_n_n.contr.Idx) :
    (dot_S400x10000_S10000x8_S400x8_1_0_0_1_n_n.lhsIdx i q 0).val = (i 0).val := by
  unfold DotDims.lhsIdx
  rw [dif_neg (show ¬(0 : Fin S400x10000.rank) ∈ dot_S400x10000_S10000x8_S400x8_1_0_0_1_n_n.lhsBatch by decide), dif_pos (show (0 : Fin S400x10000.rank) ∈ dot_S400x10000_S10000x8_S400x8_1_0_0_1_n_n.lhsNonContracting by decide)]
  rfl
theorem lhs_agg2_1 (i : S400x8.Idx) (q : dot_S400x10000_S10000x8_S400x8_1_0_0_1_n_n.contr.Idx) :
    (dot_S400x10000_S10000x8_S400x8_1_0_0_1_n_n.lhsIdx i q 1).val = (q ⟨0, by decide⟩).val :=
  dot_S400x10000_S10000x8_S400x8_1_0_0_1_n_n.lhsIdx_val_of_single rfl i q
theorem rhs_agg2_0 (i : S400x8.Idx) (q : dot_S400x10000_S10000x8_S400x8_1_0_0_1_n_n.contr.Idx) :
    (dot_S400x10000_S10000x8_S400x8_1_0_0_1_n_n.rhsIdx i q 0).val = (q ⟨0, by decide⟩).val :=
  dot_S400x10000_S10000x8_S400x8_1_0_0_1_n_n.rhsIdx_val_of_single rfl i q
theorem rhs_agg2_1 (i : S400x8.Idx) (q : dot_S400x10000_S10000x8_S400x8_1_0_0_1_n_n.contr.Idx) :
    (dot_S400x10000_S10000x8_S400x8_1_0_0_1_n_n.rhsIdx i q 1).val = (i 1).val := by
  unfold DotDims.rhsIdx
  rw [dif_neg (show ¬(1 : Fin S10000x8.rank) ∈ dot_S400x10000_S10000x8_S400x8_1_0_0_1_n_n.rhsBatch by decide), dif_pos (show (1 : Fin S10000x8.rank) ∈ dot_S400x10000_S10000x8_S400x8_1_0_0_1_n_n.rhsNonContracting by decide)]
  rfl

/-- The product at row `p` of the block, class `q`: the sum over the 10000 nodes. -/
theorem matmul_agg2 (l : Vec Ideal S400x10000 .f32) (r : Vec Ideal S10000x8 .f32) (p : Fin 400) (q : Fin 8) :
    matmul (F := Ideal) (φ₁ := .f32) (φ₂ := .f32) dot_S400x10000_S10000x8_S400x8_1_0_0_1_n_n none l r (constant S400x8 .f32 0x00000000#32) (ix2 p q)
      = ∑ k : Fin 10000, l (ix2 p k) * r (ix2 k q) := by
  simp only [matmul]
  rw [Ideal.matmul_constant_zero_apply, ← Equiv.sum_comp (contrEquiv1 dot_S400x10000_S10000x8_S400x8_1_0_0_1_n_n 10000 rfl rfl).symm]
  refine Finset.sum_congr rfl fun k _ => ?_
  have hk := contrEquiv1_symm_val dot_S400x10000_S10000x8_S400x8_1_0_0_1_n_n 10000 rfl rfl k
  have el : dot_S400x10000_S10000x8_S400x8_1_0_0_1_n_n.lhsIdx (ix2 p q) ((contrEquiv1 dot_S400x10000_S10000x8_S400x8_1_0_0_1_n_n 10000 rfl rfl).symm k) = ix2 p k := funext fun a => Fin.ext (by
    match a with
    | ⟨0, _⟩ => exact lhs_agg2_0 _ _
    | ⟨1, _⟩ => exact (lhs_agg2_1 _ _).trans hk)
  have er : dot_S400x10000_S10000x8_S400x8_1_0_0_1_n_n.rhsIdx (ix2 p q) ((contrEquiv1 dot_S400x10000_S10000x8_S400x8_1_0_0_1_n_n 10000 rfl rfl).symm k) = ix2 k q := funext fun a => Fin.ext (by
    match a with
    | ⟨0, _⟩ => exact (rhs_agg2_0 _ _).trans hk
    | ⟨1, _⟩ => exact rhs_agg2_1 _ _)
  rw [el, er]

/-! ## Layout operations the second body uses, read at an index -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The lane reductions of a `400 × 8` block, read at a row -/

/-- The source index a row's reduction reads at lane `c` is `(r, c)`. -/
theorem lift_row (h : S400x8.Reduces [1] S400) (r : Fin 400) (c : Fin 8) : h.lift (ix1 r) c = ix2 r c :=
  funext fun a => Fin.ext (by match a with | ⟨0, _⟩ => rfl | ⟨1, _⟩ => rfl)

/-- The word `0xFF800000` is the bottom element. -/
theorem ofBits_negInf_f32 : Ideal.ofBits .f32 0xFF800000#32 = ⊥ := by simp [Ideal.ofBits, Ideal.ieee]

/-- A row's `maximumf` reduction from `-∞` is the row's maximum folded from the bottom element. -/
theorem rowMax_apply (v : FVec Ideal S400x8 .f32) (h : S400x8.Reduces [1] S400) (hφ : FKind.Formats .f32)
    (hacc : (0xFF800000#32 : BitVec 32) = 0xFF800000#32) (r : Fin 400) :
    multiReduction (F := Ideal) .maximumf [1] S400 v 0xFF800000#32 h hφ hacc (ix1 r) = Cert.Spec.rowMax (fun c => v (ix2 r c)) := by
  refine (Ideal.multiReduction_maximumf_single v 0xFF800000#32 h hφ hacc (ix1 r)).trans ?_
  have e : v ∘ h.lift (ix1 r) = fun c : Fin 8 => v (ix2 r c) := funext fun c => congrArg v (lift_row h r c)
  rw [e]
  show (Finset.univ : Finset (Fin 8)).fold max (Ideal.ofBits .f32 0xFF800000#32) _ = _
  rw [ofBits_negInf_f32]
  rfl

/-- A row's `add` reduction from zero is the sum of the row. -/
theorem rowSum_apply (v : FVec Ideal S400x8 .f32) (h : S400x8.Reduces [1] S400) (hφ : FKind.Formats .f32)
    (hacc : (0x00000000#32 : BitVec 32) = 0x00000000#32) (r : Fin 400) :
    multiReduction (F := Ideal) .add [1] S400 v 0x00000000#32 h hφ hacc (ix1 r) = ∑ c : Fin 8, v (ix2 r c) :=
  (Ideal.multiReduction_add_single v 0x00000000#32 h hφ hacc (ix1 r)).trans
    (Finset.sum_congr rfl fun c _ => congrArg v (lift_row h r c))

/-- `math.exp` and `math.log` of a vector, at an index. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-! ## The four payloads -/

variable [Cert.KernelIdeal.Facts]

theorem proj1_apply (x : Vec Ideal S10000x128 .f32) (w : Vec Ideal S128x16 .f32) (k : Fin 10000) (j : Fin 16) :
    k0_pay1 (F := Ideal) x w (ix2 k j) = ∑ f : Fin 128, x (ix2 k f) * w (ix2 f j) := by
  unfold k0_pay1
  simp only [shapeCast_self, matmul_proj1]

theorem hid_apply (a : Vec Ideal S400x10000 .f32) (s : Vec Ideal S10000x16 .f32) (b : Vec Ideal S1x16 .f32) (r : Fin 400) (j : Fin 16) :
    k0_pay2 (F := Ideal) a s b (ix2 r j) = max ((∑ k : Fin 10000, a (ix2 r k) * s (ix2 k j)) + b (ix2 0 j)) 0 := by
  unfold k0_pay2
  simp only [maximumf_apply, addf_apply, broadcast_apply, shapeCast_self, broadcastTo_1b_ab_apply, matmul_agg1]
  show max _ (Ideal.ofBits .f32 0x00000000#32) = _
  rw [Ideal.ofBits_zero_f32]

theorem proj2_apply (h : Vec Ideal S10000x16 .f32) (w : Vec Ideal S16x8 .f32) (k : Fin 10000) (c : Fin 8) :
    k1_pay1 (F := Ideal) h w (ix2 k c) = ∑ j : Fin 16, h (ix2 k j) * w (ix2 j c) := by
  unfold k1_pay1
  simp only [shapeCast_self, matmul_proj2]

theorem out_apply (a : Vec Ideal S400x10000 .f32) (s : Vec Ideal S10000x8 .f32) (b : Vec Ideal S1x8 .f32) (r : Fin 400) (c : Fin 8) :
    k1_pay2 (F := Ideal) a s b (ix2 r c) = Cert.Spec.rowK (fun c' => (∑ k : Fin 10000, a (ix2 r k) * s (ix2 k c')) + b (ix2 0 c')) c := by
  unfold k1_pay2
  simp only [subf_apply, addf_apply, log_apply, shapeCast_self, broadcastTo_1b_ab_apply, broadcastTo_a1_ab_apply,
    shapeCast_a_a1_apply, matmul_agg2]
  rw [rowMax_apply, rowSum_apply]
  simp only [subf_apply, addf_apply, exp_apply, shapeCast_self, broadcastTo_1b_ab_apply, broadcastTo_a1_ab_apply,
    shapeCast_a_a1_apply, matmul_agg2]
  rw [rowMax_apply]
  simp only [addf_apply, broadcastTo_1b_ab_apply, matmul_agg2]
  rfl

end Cert.KernelIdeal.Payloads

end
-- ==== Proof.KernelIdeal.Arrays.lean ====
import proofs.«160376_g44289702756771_cont_8to1_c_1056_3_alg».proof.Proof.KernelIdeal.Layer1
import proofs.«160376_g44289702756771_cont_8to1_c_1056_3_alg».proof.Proof.KernelIdeal.Layer2
import proofs.«160376_g44289702756771_cont_8to1_c_1056_3_alg».proof.Proof.KernelIdeal.Payloads
import proofs.«160376_g44289702756771_cont_8to1_c_1056_3_alg».proof.Proof.Spec
import Idealize.ShloMosaic.Lib.ValueIdx

/-! From blocks to arrays. Each of the two kernel regions writes its output array block by block: grid point `t`
    (of 25) writes rows `400 t … 400 t + 399`, computed from rows `400 t … 400 t + 399` of `adj`, from the projection
    the first point left in the scratch, and from the bias row; the other three windows show the body their whole
    arrays at every point. So what point `t` writes back is block `t` of ONE function of the region-entry contents
    (the hidden layer `max (adj · (x · W1) + b1) 0` for the first region, the row-normalised logits
    `adj · (h · W2) + b2` for the second), the 25 blocks fill the array (row `i` belongs to point `i / 400`), and the
    array after the region is that function, index by index. -/

noncomputable section

namespace Cert.KernelIdeal.Arrays

open Cert.KernelIdeal Cert.KernelIdeal.Gen Idealize.ShloMosaic Idealize.ShloMosaic.TcCoe Idealize.ShloMosaic.ValueIdx
open Idealize.ShloMosaic.Pipeline

/-! ## The index maps, decided over the two grids -/

/-- The index maps of the first layer's five windows: the block of `adj` and the output's block move with the point
    along the rows; the three whole windows stay at the origin. -/
theorem idx1_dec : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The same for the second layer's. -/
theorem idx2_dec : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable [Cert.KernelIdeal.Facts]
variable (V : (c : Dev nD) → (b : Ref sig .tc) → Buf (Elt Ideal) ((c : Thread nD τ).loc b))

/-! ## The first layer -/

theorem idx1 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 := idx1_dec

/-- A grid point is one of 25. -/
theorem lt25_1 (t : Fin cfg0.N) : t.val < 25 := lt_of_lt_of_eq t.isLt N_0

/-- Row `r` of the block at point `t` is row `400 t + r` of the array. -/
def row1 (t : Fin cfg0.N) (r : Fin 400) : Fin 10000 := ⟨400 * t.val + r.val, by have := lt25_1 t; have := r.isLt; omega⟩

/-- The block of `adj` at point `t`, entry by entry. -/
theorem adj_block1 (c : Dev nD) (t : Fin cfg0.N) (r : Fin 400) (k : Fin 10000) :
    (Layer1.iblk V c 0 t : Vec Ideal S400x10000 .f32) (ix2 r k) = (V c main_arg1 : S10000x10000.Idx → EReal) (ix2 (row1 t r) k) := by
  obtain ⟨e0, e1, -⟩ := idx1 t
  unfold Layer1.iblk
  rw [View.read_apply]
  show V c main_arg1 _ = V c main_arg1 _
  refine congrArg _ ?_
  funext a; apply Fin.ext
  match a with
  | ⟨0, _⟩ => show win0_0.index t (0 : Fin 2) * 400 + 1 * r.val = 400 * t.val + r.val; rw [e0]; omega
  | ⟨1, _⟩ => show win0_0.index t (1 : Fin 2) * 10000 + 1 * k.val = k.val; rw [e1]; omega

/-- The window of `x` holds the whole array at every point. -/
theorem x_block1 (c : Dev nD) (t : Fin cfg0.N) :
    (Layer1.iblk V c 1 t : Vec Ideal S10000x128 .f32) = (V c main_arg0 : S10000x128.Idx → EReal) := by
  obtain ⟨-, -, e0, e1, -⟩ := idx1 t
  funext y
  unfold Layer1.iblk
  rw [View.read_apply]
  show V c main_arg0 _ = V c main_arg0 _
  refine congrArg _ ?_
  funext a; apply Fin.ext
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The window of `W1` holds the whole array at every point. -/
theorem w_block1 (c : Dev nD) (t : Fin cfg0.N) :
    (Layer1.iblk V c 2 t : Vec Ideal S128x16 .f32) = (V c main_arg2 : S128x16.Idx → EReal) := by
  obtain ⟨-, -, -, -, e0, e1, -⟩ := idx1 t
  funext y
  unfold Layer1.iblk
  rw [View.read_apply]
  show V c main_arg2 _ = V c main_arg2 _
  refine congrArg _ ?_
  funext a; apply Fin.ext
  match a with
  | ⟨0, _⟩ => show win0_2.index t (0 : Fin 2) * 128 + 1 * (y 0).val = (y 0).val; rw [e0]; omega
  | ⟨1, _⟩ => show win0_2.index t (1 : Fin 2) * 16 + 1 * (y 1).val = (y 1).val; rw [e1]; omega

/-- The window of the bias row holds the whole row at every point. -/
theorem b_block1 (c : Dev nD) (t : Fin cfg0.N) :
    (Layer1.iblk V c 3 t : Vec Ideal S1x16 .f32) = (V c main_v0 : S1x16.Idx → EReal) := by
  obtain ⟨-, -, -, -, -, -, e0, e1, -⟩ := idx1 t
  funext y
  unfold Layer1.iblk
  rw [View.read_apply]
  show V c main_v0 _ = V c main_v0 _
  refine congrArg _ ?_
  funext a; apply Fin.ext
  match a with
  | ⟨0, _⟩ => show win0_3.index t (0 : Fin 2) * 1 + 1 * (y 0).val = (y 0).val; rw [e0]; omega
  | ⟨1, _⟩ => show win0_3.index t (1 : Fin 2) * 16 + 1 * (y 1).val = (y 1).val; rw [e1]; omega

/-- The projection the first point leaves in the scratch is `x · W1`, entry by entry. -/
theorem proj_apply1 (c : Dev nD) (k : Fin 10000) (j : Fin 16) :
    Layer1.proj V c (ix2 k j)
      = Cert.Spec.proj1 (fun k f => V c main_arg0 (ix2 k f)) (fun f j => V c main_arg2 (ix2 f j)) k j := by
  unfold Layer1.proj
  refine (Payloads.proj1_apply (Layer1.iblk V c 1 Layer1.t₀) (Layer1.iblk V c 2 Layer1.t₀) k j).trans ?_
  rw [x_block1 V c Layer1.t₀, w_block1 V c Layer1.t₀]
  rfl

/-- The hidden layer, as one function on the indices of its array. -/
def hidArr (c : Dev nD) : S10000x16.Idx → EReal := fun i =>
  Cert.Spec.hid (fun i k => V c main_arg1 (ix2 i k))
    (Cert.Spec.proj1 (fun k f => V c main_arg0 (ix2 k f)) (fun f j => V c main_arg2 (ix2 f j)))
    (fun j => V c main_v0 (ix2 0 j)) (i 0) (i 1)

/-- What point `t` leaves in the output's buffer is rows `400 t … 400 t + 399` of the hidden layer. -/
theorem hid_point1 (c : Dev nD) (t : Fin cfg0.N) (r : Fin 400) (j : Fin 16) :
    (k0_pay2 (Layer1.iblk V c 0 t) (Layer1.proj V c) (Layer1.iblk V c 3 t) : Vec Ideal S400x16 .f32) (ix2 r j)
      = hidArr V c (ix2 (row1 t r) j) := by
  refine (Payloads.hid_apply (Layer1.iblk V c 0 t) (Layer1.proj V c) (Layer1.iblk V c 3 t) r j).trans ?_
  rw [b_block1 V c t]
  show max ((∑ k : Fin 10000, _) + _) 0 = max ((∑ k : Fin 10000, _) + _) 0
  refine congrArg (fun s => max (s + _) 0) (Finset.sum_congr rfl fun k _ => ?_)
  rw [adj_block1 V c t r k, proj_apply1 V c k j]

/-- What point `t` writes back is block `t` of the hidden layer. -/
theorem flushed_eq1 (c : Dev nD) (t : Fin cfg0.N) :
    (Layer1.dat V c).flushed 4 t = ((cfg0.win 4).blk t).view.read (Elt Ideal) (hidArr V c) := by
  show (cfg0.win 4).cut (grid0.coords t) ((Layer1.dat V c).after 4 t) = _
  rw [Layer1.after_4]
  obtain ⟨-, -, -, -, -, -, -, -, e0, e1⟩ := idx1 t
  refine funext fun (y : S400x16.Idx) => ?_
  obtain ⟨r, j, rfl⟩ : ∃ (r : Fin 400) (j : Fin 16), y = ix2 r j := ⟨y 0, y 1, eq_ix2 y⟩
  have hy : (cfg0.win 4).xinj (grid0.coords t) (ix2 r j) = (ix2 r j : S400x16.Idx) := by
    funext a; match a with | ⟨0, _⟩ => rfl | ⟨1, _⟩ => rfl
  have hemb : ((cfg0.win 4).blk t).view.emb (ix2 r j) = (ix2 (row1 t r) j : S10000x16.Idx) := by
    funext a; apply Fin.ext
    match a with
    | ⟨0, _⟩ => show win0_4.index t (0 : Fin 2) * 400 + 1 * r.val = 400 * t.val + r.val; rw [e0]; omega
    | ⟨1, _⟩ => show win0_4.index t (1 : Fin 2) * 16 + 1 * j.val = j.val; rw [e1]; omega
  show (k0_pay2 (Layer1.iblk V c 0 t) (Layer1.proj V c) (Layer1.iblk V c 3 t) : Vec Ideal S400x16 .f32)
      ((cfg0.win 4).xinj (grid0.coords t) (ix2 r j)) = hidArr V c (((cfg0.win 4).blk t).view.emb (ix2 r j))
  rw [hy, hemb]
  exact hid_point1 V c t r j

/-- An index of the hidden layer's array lies in point `t`'s block iff each coordinate lies in the block's range. -/
theorem mem_blk1 (t : Fin cfg0.N) (i : S10000x16.Idx) :
    i ∈ ((cfg0.win 4).blk t).view.set ↔ ∀ a : Fin 2, win0_4.index t a * S400x16.size a ≤ (i a).val
      ∧ (i a).val < win0_4.index t a * S400x16.size a + S400x16.size a := by
  show i ∈ ((View.whole main_v2).slice (win0_4.rect t)).set ↔ _
  rw [View.set_slice_whole, Rect.mem_set_unit]
  exact Iff.rfl

/-- Row `i` is written by point `i / 400`: the 25 blocks of 400 rows fill the array. -/
theorem cover1 (i : S10000x16.Idx) :
    ∃ t : Fin cfg0.N, (cfg0.win 4).flush t = true ∧ i ∈ ((cfg0.win 4).blk t).view.set := by
  have hi0 : (i 0).val < 10000 := (i 0).isLt
  have hi1 : (i 1).val < 16 := (i 1).isLt
  have ht : (i 0).val / 400 < cfg0.N := by rw [show cfg0.N = 25 from N_0]; omega
  obtain ⟨-, -, -, -, -, -, -, -, e0, e1⟩ := idx1 ⟨(i 0).val / 400, ht⟩
  have e0' : win0_4.index ⟨(i 0).val / 400, ht⟩ (0 : Fin 2) = (i 0).val / 400 := e0
  refine ⟨⟨(i 0).val / 400, ht⟩, flush0_4 _, ?_⟩
  rw [mem_blk1]
  intro a
  match a with
  | ⟨0, _⟩ =>
    show win0_4.index ⟨(i 0).val / 400, ht⟩ (0 : Fin 2) * 400 ≤ (i 0).val
      ∧ (i 0).val < win0_4.index ⟨(i 0).val / 400, ht⟩ (0 : Fin 2) * 400 + 400
    rw [e0']; omega
  | ⟨1, _⟩ =>
    show win0_4.index ⟨(i 0).val / 400, ht⟩ (1 : Fin 2) * 16 ≤ (i 1).val
      ∧ (i 1).val < win0_4.index ⟨(i 0).val / 400, ht⟩ (1 : Fin 2) * 16 + 16
    rw [e1]; omega

/-- THE HIDDEN LAYER'S ARRAY after the first region, as one function of the region-entry contents. -/
theorem hidden_eq (c : Dev nD) : (Layer1.dat V c).arrAt 4 cfg0.N = hidArr V c :=
  (Layer1.dat V c).arrAt_eq_of_cover 4 (hidArr V c) (fun t _ => flushed_eq1 V c t) cover1

/-- The same, entry by entry. -/
theorem hidden_array (c : Dev nD) (i : Fin 10000) (j : Fin 16) :
    (Layer1.dat (F := Ideal) V c).arrAt 4 cfg0.N (ix2 i j)
      = Cert.Spec.hid (fun i k => V c main_arg1 (ix2 i k))
          (Cert.Spec.proj1 (fun k f => V c main_arg0 (ix2 k f)) (fun f j => V c main_arg2 (ix2 f j)))
          (fun j => V c main_v0 (ix2 0 j)) i j :=
  congrFun (hidden_eq V c) (ix2 i j)

/-! ## The second layer -/

theorem idx2 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 := idx2_dec

/-- A grid point is one of 25. -/
theorem lt25_2 (t : Fin cfg1.N) : t.val < 25 := lt_of_lt_of_eq t.isLt N_1

/-- Row `r` of the block at point `t` is row `400 t + r` of the array. -/
def row2 (t : Fin cfg1.N) (r : Fin 400) : Fin 10000 := ⟨400 * t.val + r.val, by have := lt25_2 t; have := r.isLt; omega⟩

/-- The block of `adj` at point `t`, entry by entry. -/
theorem adj_block2 (c : Dev nD) (t : Fin cfg1.N) (r : Fin 400) (k : Fin 10000) :
    (Layer2.iblk V c 0 t : Vec Ideal S400x10000 .f32) (ix2 r k) = (V c main_arg1 : S10000x10000.Idx → EReal) (ix2 (row2 t r) k) := by
  obtain ⟨e0, e1, -⟩ := idx2 t
  unfold Layer2.iblk
  rw [View.read_apply]
  show V c main_arg1 _ = V c main_arg1 _
  refine congrArg _ ?_
  funext a; apply Fin.ext
  match a with
  | ⟨0, _⟩ => show win1_0.index t (0 : Fin 2) * 400 + 1 * r.val = 400 * t.val + r.val; rw [e0]; omega
  | ⟨1, _⟩ => show win1_0.index t (1 : Fin 2) * 10000 + 1 * k.val = k.val; rw [e1]; omega

/-- The window of the hidden layer holds the whole array at every point. -/
theorem h_block2 (c : Dev nD) (t : Fin cfg1.N) :
    (Layer2.iblk V c 1 t : Vec Ideal S10000x16 .f32) = (V c main_v2 : S10000x16.Idx → EReal) := by
  obtain ⟨-, -, e0, e1, -⟩ := idx2 t
  funext y
  unfold Layer2.iblk
  rw [View.read_apply]
  show V c main_v2 _ = V c main_v2 _
  refine congrArg _ ?_
  funext a; apply Fin.ext
  match a with
  | ⟨0, _⟩ => show win1_1.index t (0 : Fin 2) * 10000 + 1 * (y 0).val = (y 0).val; rw [e0]; omega
  | ⟨1, _⟩ => show win1_1.index t (1 : Fin 2) * 16 + 1 * (y 1).val = (y 1).val; rw [e1]; omega

/-- The window of `W2` holds the whole array at every point. -/
theorem w_block2 (c : Dev nD) (t : Fin cfg1.N) :
    (Layer2.iblk V c 2 t : Vec Ideal S16x8 .f32) = (V c main_arg4 : S16x8.Idx → EReal) := by
  obtain ⟨-, -, -, -, e0, e1, -⟩ := idx2 t
  funext y
  unfold Layer2.iblk
  rw [View.read_apply]
  show V c main_arg4 _ = V c main_arg4 _
  refine congrArg _ ?_
  funext a; apply Fin.ext
  match a with
  | ⟨0, _⟩ => show win1_2.index t (0 : Fin 2) * 16 + 1 * (y 0).val = (y 0).val; rw [e0]; omega
  | ⟨1, _⟩ => show win1_2.index t (1 : Fin 2) * 8 + 1 * (y 1).val = (y 1).val; rw [e1]; omega

/-- The window of the bias row holds the whole row at every point. -/
theorem b_block2 (c : Dev nD) (t : Fin cfg1.N) :
    (Layer2.iblk V c 3 t : Vec Ideal S1x8 .f32) = (V c main_v1 : S1x8.Idx → EReal) := by
  obtain ⟨-, -, -, -, -, -, e0, e1, -⟩ := idx2 t
  funext y
  unfold Layer2.iblk
  rw [View.read_apply]
  show V c main_v1 _ = V c main_v1 _
  refine congrArg _ ?_
  funext a; apply Fin.ext
  match a with
  | ⟨0, _⟩ => show win1_3.index t (0 : Fin 2) * 1 + 1 * (y 0).val = (y 0).val; rw [e0]; omega
  | ⟨1, _⟩ => show win1_3.index t (1 : Fin 2) * 8 + 1 * (y 1).val = (y 1).val; rw [e1]; omega

/-- The projection the first point leaves in the scratch is `h · W2`, entry by entry. -/
theorem proj_apply2 (c : Dev nD) (k : Fin 10000) (cl : Fin 8) :
    Layer2.proj V c (ix2 k cl)
      = Cert.Spec.proj2 (fun k j => V c main_v2 (ix2 k j)) (fun j cl' => V c main_arg4 (ix2 j cl')) k cl := by
  unfold Layer2.proj
  refine (Payloads.proj2_apply (Layer2.iblk V c 1 Layer2.t₀) (Layer2.iblk V c 2 Layer2.t₀) k cl).trans ?_
  rw [h_block2 V c Layer2.t₀, w_block2 V c Layer2.t₀]
  rfl

/-- The normalised logits, as one function on the indices of the result array. -/
def outArr (c : Dev nD) : S10000x8.Idx → EReal := fun i =>
  Cert.Spec.rowK (Cert.Spec.logits (fun i k => V c main_arg1 (ix2 i k))
    (Cert.Spec.proj2 (fun k j => V c main_v2 (ix2 k j)) (fun j cl' => V c main_arg4 (ix2 j cl')))
    (fun cl' => V c main_v1 (ix2 0 cl')) (i 0)) (i 1)

/-- What point `t` leaves in the output's buffer is rows `400 t … 400 t + 399` of the normalised logits: the row of
    logits the body normalises is the array's row. -/
theorem out_point2 (c : Dev nD) (t : Fin cfg1.N) (r : Fin 400) (cl : Fin 8) :
    (k1_pay2 (Layer2.iblk V c 0 t) (Layer2.proj V c) (Layer2.iblk V c 3 t) : Vec Ideal S400x8 .f32) (ix2 r cl)
      = outArr V c (ix2 (row2 t r) cl) := by
  refine (Payloads.out_apply (Layer2.iblk V c 0 t) (Layer2.proj V c) (Layer2.iblk V c 3 t) r cl).trans ?_
  refine congrArg (fun v => Cert.Spec.rowK v cl) (funext fun c' => ?_)
  rw [b_block2 V c t]
  show (∑ k : Fin 10000, _) + _ = (∑ k : Fin 10000, _) + _
  refine congrArg (fun s => s + _) (Finset.sum_congr rfl fun k _ => ?_)
  rw [adj_block2 V c t r k, proj_apply2 V c k c']

/-- What point `t` writes back is block `t` of the normalised logits. -/
theorem flushed_eq2 (c : Dev nD) (t : Fin cfg1.N) :
    (Layer2.dat V c).flushed 4 t = ((cfg1.win 4).blk t).view.read (Elt Ideal) (outArr V c) := by
  show (cfg1.win 4).cut (grid1.coords t) ((Layer2.dat V c).after 4 t) = _
  rw [Layer2.after_4]
  obtain ⟨-, -, -, -, -, -, -, -, e0, e1⟩ := idx2 t
  refine funext fun (y : S400x8.Idx) => ?_
  obtain ⟨r, cl, rfl⟩ : ∃ (r : Fin 400) (cl : Fin 8), y = ix2 r cl := ⟨y 0, y 1, eq_ix2 y⟩
  have hy : (cfg1.win 4).xinj (grid1.coords t) (ix2 r cl) = (ix2 r cl : S400x8.Idx) := by
    funext a; match a with | ⟨0, _⟩ => rfl | ⟨1, _⟩ => rfl
  have hemb : ((cfg1.win 4).blk t).view.emb (ix2 r cl) = (ix2 (row2 t r) cl : S10000x8.Idx) := by
    funext a; apply Fin.ext
    match a with
    | ⟨0, _⟩ => show win1_4.index t (0 : Fin 2) * 400 + 1 * r.val = 400 * t.val + r.val; rw [e0]; omega
    | ⟨1, _⟩ => show win1_4.index t (1 : Fin 2) * 8 + 1 * cl.val = cl.val; rw [e1]; omega
  show (k1_pay2 (Layer2.iblk V c 0 t) (Layer2.proj V c) (Layer2.iblk V c 3 t) : Vec Ideal S400x8 .f32)
      ((cfg1.win 4).xinj (grid1.coords t) (ix2 r cl)) = outArr V c (((cfg1.win 4).blk t).view.emb (ix2 r cl))
  rw [hy, hemb]
  exact out_point2 V c t r cl

/-- An index of the result array lies in point `t`'s block iff each coordinate lies in the block's range. -/
theorem mem_blk2 (t : Fin cfg1.N) (i : S10000x8.Idx) :
    i ∈ ((cfg1.win 4).blk t).view.set ↔ ∀ a : Fin 2, win1_4.index t a * S400x8.size a ≤ (i a).val
      ∧ (i a).val < win1_4.index t a * S400x8.size a + S400x8.size a := by
  show i ∈ ((View.whole main_v3).slice (win1_4.rect t)).set ↔ _
  rw [View.set_slice_whole, Rect.mem_set_unit]
  exact Iff.rfl

/-- Row `i` is written by point `i / 400`: the 25 blocks of 400 rows fill the array. -/
theorem cover2 (i : S10000x8.Idx) :
    ∃ t : Fin cfg1.N, (cfg1.win 4).flush t = true ∧ i ∈ ((cfg1.win 4).blk t).view.set := by
  have hi0 : (i 0).val < 10000 := (i 0).isLt
  have hi1 : (i 1).val < 8 := (i 1).isLt
  have ht : (i 0).val / 400 < cfg1.N := by rw [show cfg1.N = 25 from N_1]; omega
  obtain ⟨-, -, -, -, -, -, -, -, e0, e1⟩ := idx2 ⟨(i 0).val / 400, ht⟩
  have e0' : win1_4.index ⟨(i 0).val / 400, ht⟩ (0 : Fin 2) = (i 0).val / 400 := e0
  refine ⟨⟨(i 0).val / 400, ht⟩, flush1_4 _, ?_⟩
  rw [mem_blk2]
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    rw [e0']; omega
  | ⟨1, _⟩ =>
    show win1_4.index ⟨(i 0).val / 400, ht⟩ (1 : Fin 2) * 8 ≤ (i 1).val
      ∧ (i 1).val < win1_4.index ⟨(i 0).val / 400, ht⟩ (1 : Fin 2) * 8 + 8
    rw [e1]; omega

/-- THE RESULT ARRAY after the second region, as one function of the region-entry contents. -/
theorem out_eq (c : Dev nD) : (Layer2.dat V c).arrAt 4 cfg1.N = outArr V c :=
  (Layer2.dat V c).arrAt_eq_of_cover 4 (outArr V c) (fun t _ => flushed_eq2 V c t) cover2

/-- The same, entry by entry. -/
theorem out_array (c : Dev nD) (i : Fin 10000) (cl : Fin 8) :
    (Layer2.dat (F := Ideal) V c).arrAt 4 cfg1.N (ix2 i cl)
      = Cert.Spec.rowK (Cert.Spec.logits (fun i k => V c main_arg1 (ix2 i k))
          (Cert.Spec.proj2 (fun k j => V c main_v2 (ix2 k j)) (fun j cl' => V c main_arg4 (ix2 j cl')))
          (fun cl' => V c main_v1 (ix2 0 cl')) i) cl :=
  congrFun (out_eq V c) (ix2 i cl)

end Cert.KernelIdeal.Arrays

end
-- ==== Proof.ReferenceValue.lean ====
import proofs.«160376_g44289702756771_cont_8to1_c_1056_3_alg».proof.Defs
import proofs.«160376_g44289702756771_cont_8to1_c_1056_3_alg».proof.Proof.ReferenceRun
import proofs.«160376_g44289702756771_cont_8to1_c_1056_3_alg».proof.Proof.ReferenceRead
import proofs.«160376_g44289702756771_cont_8to1_c_1056_3_alg».proof.Proof.Spec
import Idealize.ShloMosaic.Lib.ValueIdx
import Idealize.ShloMosaic.Lib.Pipeline.Value
import Idealize.ShloMosaic.PureOps.Reduce
import Idealize.ShloMosaic.PureOps.Ideal.Laws

/-! The reference program's result, read at one index `(p, q)`, is `Spec.outR` of the six argument arrays.

    The reference is a straight line of array operations. Each is read at an index from its operands at an index;
    composing the readings from the result back to the arguments gives, stage by stage,
      the first projection   x · W1                 (`Spec.proj1`),
      the hidden layer       max (adj · P1 + b1) 0  (`Spec.hid`),
      the second projection  H · W2                 (`Spec.proj2`),
      the logits             adj · P2 + b2          (`Spec.zOf`),
    and then, along a row `v` of eight logits, the maximum folded from −∞ (`Spec.rowMax`), its maximum with −∞ once
    more, the shifted row, the sum of its exponentials, the logarithm of that sum, and the difference
    `(v c − m) − log (∑ exp (v · − m))` (`Spec.rowR`). Every step is an equation between extended reals at a fixed
    index; no sum is ever evaluated. -/

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.ReferenceIdeal.ReadP

/-! ## The argument arrays as curried tables -/

/-- The features `x`, by node and feature. -/
abbrev tX (x0 : (⟨S10000x128, .f32⟩ : BufTy).Contents (Elt Ideal)) : Fin 10000 → Fin 128 → EReal := fun k f => x0 (ix2 k f)
/-- The adjacency `adj`, by row and column. -/
abbrev tA (x1 : (⟨S10000x10000, .f32⟩ : BufTy).Contents (Elt Ideal)) : Fin 10000 → Fin 10000 → EReal := fun i k => x1 (ix2 i k)
/-- The first weights `W1`. -/
abbrev tW1 (x2 : (⟨S128x16, .f32⟩ : BufTy).Contents (Elt Ideal)) : Fin 128 → Fin 16 → EReal := fun f j => x2 (ix2 f j)
/-- The first bias `b1`. -/
abbrev tB1 (x3 : (⟨S16, .f32⟩ : BufTy).Contents (Elt Ideal)) : Fin 16 → EReal := fun j => x3 (ix1 j)
/-- The second weights `W2`. -/
abbrev tW2 (x4 : (⟨S16x8, .f32⟩ : BufTy).Contents (Elt Ideal)) : Fin 16 → Fin 8 → EReal := fun j c => x4 (ix2 j c)
/-- The second bias `b2`. -/
abbrev tB2 (x5 : (⟨S8, .f32⟩ : BufTy).Contents (Elt Ideal)) : Fin 8 → EReal := fun c => x5 (ix1 c)

variable (x0 : (⟨S10000x128, .f32⟩ : BufTy).Contents (Elt Ideal)) (x1 : (⟨S10000x10000, .f32⟩ : BufTy).Contents (Elt Ideal))
    (x2 : (⟨S128x16, .f32⟩ : BufTy).Contents (Elt Ideal)) (x3 : (⟨S16, .f32⟩ : BufTy).Contents (Elt Ideal))
    (x4 : (⟨S16x8, .f32⟩ : BufTy).Contents (Elt Ideal)) (x5 : (⟨S8, .f32⟩ : BufTy).Contents (Elt Ideal))

/-- The network's logits, from the argument arrays. -/
abbrev tZ : Fin 10000 → Fin 8 → EReal :=
  Cert.Spec.zOf (tX x0) (tA x1) (tW1 x2) (tB1 x3) (tW2 x4) (tB2 x5)

/-- The reference's shift of row `p`: the maximum of −∞ and the row's maximum. -/
abbrev tM (p : Fin 10000) : EReal := max ⊥ (Cert.Spec.rowMax (tZ x0 x1 x2 x3 x4 x5 p))

/-! ## The two literals -/

/-- The pattern `0xFF800000` is −∞. -/
theorem ofBits_negInf : FloatOps.ofBits (F := Ideal) .f32 0xFF800000#32 = (⊥ : EReal) := by
  show Ideal.ofBits .f32 0xFF800000#32 = ⊥
  simp [Ideal.ofBits, Ideal.ieee]

/-- The pattern `0x00000000` is 0. -/
theorem ofBits_zero : FloatOps.ofBits (F := Ideal) .f32 0x00000000#32 = (0 : EReal) :=
  Ideal.ofBits_zero_f32

/-! ## The first layer -/

/-- `x · W1` at `(k, j)`. -/
theorem v0_at (k : Fin 10000) (j : Fin 16) :
    val_main_v0 (F := Ideal) x0 x2 (ix2 k j) = Cert.Spec.proj1 (tX x0) (tW1 x2) k j := by
  rw [val_main_v0_apply]
  unfold Cert.Spec.proj1
  refine Finset.sum_congr rfl fun f _ => ?_
  have el : lidx_main_v0 (ix2 k j) f = ix2 k f :=
    funext fun a => Fin.ext (by match a with | ⟨0, _⟩ => rfl | ⟨1, _⟩ => rfl)
  have er : ridx_main_v0 (ix2 k j) f = ix2 f j :=
    funext fun a => Fin.ext (by match a with | ⟨0, _⟩ => rfl | ⟨1, _⟩ => rfl)
  rw [el, er]

/-- `adj · (x · W1)` at `(i, j)`. -/
theorem v1_at (i : Fin 10000) (j : Fin 16) :
    val_main_v1 (F := Ideal) x0 x1 x2 (ix2 i j)
      = ∑ k : Fin 10000, tA x1 i k * Cert.Spec.proj1 (tX x0) (tW1 x2) k j := by
  rw [val_main_v1_apply]
  refine Finset.sum_congr rfl fun k _ => ?_
  have el : lidx_main_v1 (ix2 i j) k = ix2 i k :=
    funext fun a => Fin.ext (by match a with | ⟨0, _⟩ => rfl | ⟨1, _⟩ => rfl)
  have er : ridx_main_v1 (ix2 i j) k = ix2 k j :=
    funext fun a => Fin.ext (by match a with | ⟨0, _⟩ => rfl | ⟨1, _⟩ => rfl)
  rw [el, er, v0_at]

/-- The first bias, broadcast over the rows, at `(i, j)`. -/
theorem v3_at (i : Fin 10000) (j : Fin 16) : val_main_v3 (F := Ideal) x3 (ix2 i j) = tB1 x3 j := by
  rw [val_main_v3_apply, val_main_v2_apply]
  exact congrArg x3 (funext fun a => Fin.ext (by match a with | ⟨0, _⟩ => rfl))

/-- The zero array at any index. -/
theorem v5_at (i : S10000x16.Idx) : val_main_v5 (F := Ideal) i = (0 : EReal) := by
  rw [val_main_v5_apply, val_main_cst_apply]
  exact ofBits_zero

/-- The hidden layer `max (adj · P1 + b1) 0` at `(i, j)`. -/
theorem v6_at (i : Fin 10000) (j : Fin 16) :
    val_main_v6 (F := Ideal) x0 x1 x2 x3 (ix2 i j)
      = Cert.Spec.hid (tA x1) (Cert.Spec.proj1 (tX x0) (tW1 x2)) (tB1 x3) i j := by
  rw [val_main_v6_apply, val_main_v4_apply, v1_at, v3_at, v5_at]
  unfold Cert.Spec.hid
  rfl

/-! ## The second layer -/

/-- `H · W2` at `(k, c)`. -/
theorem v7_at (k : Fin 10000) (c : Fin 8) :
    val_main_v7 (F := Ideal) x0 x1 x2 x3 x4 (ix2 k c)
      = Cert.Spec.proj2 (Cert.Spec.hid (tA x1) (Cert.Spec.proj1 (tX x0) (tW1 x2)) (tB1 x3)) (tW2 x4) k c := by
  rw [val_main_v7_apply]
  unfold Cert.Spec.proj2
  refine Finset.sum_congr rfl fun j _ => ?_
  have el : lidx_main_v7 (ix2 k c) j = ix2 k j :=
    funext fun a => Fin.ext (by match a with | ⟨0, _⟩ => rfl | ⟨1, _⟩ => rfl)
  have er : ridx_main_v7 (ix2 k c) j = ix2 j c :=
    funext fun a => Fin.ext (by match a with | ⟨0, _⟩ => rfl | ⟨1, _⟩ => rfl)
  rw [el, er, v6_at]

/-- `adj · (H · W2)` at `(i, c)`. -/
theorem v8_at (i : Fin 10000) (c : Fin 8) :
    val_main_v8 (F := Ideal) x0 x1 x2 x3 x4 (ix2 i c)
      = ∑ k : Fin 10000, tA x1 i k
          * Cert.Spec.proj2 (Cert.Spec.hid (tA x1) (Cert.Spec.proj1 (tX x0) (tW1 x2)) (tB1 x3)) (tW2 x4) k c := by
  rw [val_main_v8_apply]
  refine Finset.sum_congr rfl fun k _ => ?_
  have el : lidx_main_v8 (ix2 i c) k = ix2 i k :=
    funext fun a => Fin.ext (by match a with | ⟨0, _⟩ => rfl | ⟨1, _⟩ => rfl)
  have er : ridx_main_v8 (ix2 i c) k = ix2 k c :=
    funext fun a => Fin.ext (by match a with | ⟨0, _⟩ => rfl | ⟨1, _⟩ => rfl)
  rw [el, er, v7_at]

/-- The second bias, broadcast over the rows, at `(i, c)`. -/
theorem v10_at (i : Fin 10000) (c : Fin 8) : val_main_v10 (F := Ideal) x5 (ix2 i c) = tB2 x5 c := by
  rw [val_main_v10_apply, val_main_v9_apply]
  exact congrArg x5 (funext fun a => Fin.ext (by match a with | ⟨0, _⟩ => rfl))

/-- The logits at `(i, c)`. -/
theorem v11_at (i : Fin 10000) (c : Fin 8) :
    val_main_v11 (F := Ideal) x0 x1 x2 x3 x4 x5 (ix2 i c) = tZ x0 x1 x2 x3 x4 x5 i c := by
  rw [val_main_v11_apply, v8_at, v10_at]
  unfold tZ Cert.Spec.zOf Cert.Spec.logits
  rfl

/-! ## The row's maximum -/

/-- The row shape loses its second axis. -/
theorem reduces_rows : S10000x8.Reduces [1] S10000 := by decide

/-- Row `p`'s index with column `c` put back is `(p, c)`. -/
theorem lift_at (p : Fin 10000) (c : Fin (S10000x8.size 1)) :
    reduces_rows.lift (ix1 p) c = ix2 p (⟨c.val, c.isLt⟩ : Fin 8) :=
  funext fun a => Fin.ext (by match a with | ⟨0, _⟩ => rfl | ⟨1, _⟩ => rfl)

/-- The fold of the float maximum from −∞ over a row of eight is the row's maximum. -/
theorem fold_maximumf (v : Fin 8 → EReal) :
    (Finset.univ : Finset (Fin 8)).fold (FloatOps.maximumf (F := Ideal) (φ := .f32)) (⊥ : EReal) v
      = Cert.Spec.rowMax v := rfl

/-- The max-reduce over the columns, at row `p`: the maximum of the row of logits. -/
theorem max_at (p : Fin 10000) :
    val_main_call0_v0 (F := Ideal) x0 x1 x2 x3 x4 x5 (ix1 p) = Cert.Spec.rowMax (tZ x0 x1 x2 x3 x4 x5 p) := by
  unfold val_main_call0_v0
  rw [Host.reduce_eq_fold_single FloatOps.maximumf _ _ reducesTo_S10000x8_S10000_d1 reduces_rows h_S_]
  have hf : (val_main_v11 (F := Ideal) x0 x1 x2 x3 x4 x5 ∘ reduces_rows.lift (ix1 p))
      = fun c : Fin 8 => tZ x0 x1 x2 x3 x4 x5 p c := funext fun c => by
    show val_main_v11 (F := Ideal) x0 x1 x2 x3 x4 x5 (reduces_rows.lift (ix1 p) c) = _
    rw [lift_at, v11_at]
    rfl
  rw [hf, val_main_call0_cst_apply, ofBits_negInf]
  exact fold_maximumf _

/-- The maximum of the −∞ array and the max-reduce, at row `p`. -/
theorem v2c_at (p : Fin 10000) :
    val_main_call0_v2 (F := Ideal) x0 x1 x2 x3 x4 x5 (ix1 p) = tM x0 x1 x2 x3 x4 x5 p := by
  rw [val_main_call0_v2_apply, val_main_call0_v1_apply, val_main_call0_cst_0_apply, max_at, ofBits_negInf]
  rfl

/-- The shift, broadcast along the row, at `(p, c)`. -/
theorem v4c_at (p : Fin 10000) (c : Fin 8) :
    val_main_call0_v4 (F := Ideal) x0 x1 x2 x3 x4 x5 (ix2 p c) = tM x0 x1 x2 x3 x4 x5 p := by
  rw [val_main_call0_v4_apply, val_main_call0_v3_apply]
  have e : idx_main_call0_v3 (idx_main_call0_v4 (ix2 p c)) = ix1 p :=
    funext fun a => Fin.ext (by match a with | ⟨0, _⟩ => rfl)
  rw [e, v2c_at]

/-! ## The normalisation -/

/-- The shifted logit at `(p, c)`. -/
theorem v5c_at (p : Fin 10000) (c : Fin 8) :
    val_main_call0_v5 (F := Ideal) x0 x1 x2 x3 x4 x5 (ix2 p c)
      = tZ x0 x1 x2 x3 x4 x5 p c - tM x0 x1 x2 x3 x4 x5 p := by
  rw [val_main_call0_v5_apply, v11_at, v4c_at]
  rfl

/-- Its exponential. -/
theorem v6c_at (p : Fin 10000) (c : Fin 8) :
    val_main_call0_v6 (F := Ideal) x0 x1 x2 x3 x4 x5 (ix2 p c)
      = Ideal.exp (tZ x0 x1 x2 x3 x4 x5 p c - tM x0 x1 x2 x3 x4 x5 p) := by
  rw [val_main_call0_v6_apply, v5c_at]
  rfl

/-- The sum of the row's exponentials, at row `p`. -/
theorem v7c_at (p : Fin 10000) :
    val_main_call0_v7 (F := Ideal) x0 x1 x2 x3 x4 x5 (ix1 p)
      = ∑ c' : Fin 8, Ideal.exp (tZ x0 x1 x2 x3 x4 x5 p c' - tM x0 x1 x2 x3 x4 x5 p) := by
  rw [val_main_call0_v7_apply, val_main_call0_cst_1_apply, ofBits_zero, zero_add]
  refine Finset.sum_congr rfl fun c' _ => ?_
  have e : idx_main_call0_v7 (ix1 p) c' = ix2 p c' :=
    funext fun a => Fin.ext (by match a with | ⟨0, _⟩ => rfl | ⟨1, _⟩ => rfl)
  rw [e, v6c_at]

/-- The logarithm of that sum, broadcast along the row, at `(p, c)`. -/
theorem v10c_at (p : Fin 10000) (c : Fin 8) :
    val_main_call0_v10 (F := Ideal) x0 x1 x2 x3 x4 x5 (ix2 p c)
      = Ideal.log (∑ c' : Fin 8, Ideal.exp (tZ x0 x1 x2 x3 x4 x5 p c' - tM x0 x1 x2 x3 x4 x5 p)) := by
  rw [val_main_call0_v10_apply, val_main_call0_v9_apply, val_main_call0_v8_apply]
  have e : idx_main_call0_v8 (idx_main_call0_v10 (ix2 p c)) = ix1 p :=
    funext fun a => Fin.ext (by match a with | ⟨0, _⟩ => rfl)
  rw [e, v7c_at]
  rfl

/-! ## The result -/

/-- The reference's result at `(p, q)` is `Spec.outR` of the argument arrays. -/
theorem ref_eq
    (x0 : (⟨S10000x128, .f32⟩ : BufTy).Contents (Elt Ideal)) (x1 : (⟨S10000x10000, .f32⟩ : BufTy).Contents (Elt Ideal))
    (x2 : (⟨S128x16, .f32⟩ : BufTy).Contents (Elt Ideal)) (x3 : (⟨S16, .f32⟩ : BufTy).Contents (Elt Ideal))
    (x4 : (⟨S16x8, .f32⟩ : BufTy).Contents (Elt Ideal)) (x5 : (⟨S8, .f32⟩ : BufTy).Contents (Elt Ideal)) (p : Fin 10000) (q : Fin 8) :
    Cert.ReferenceIdeal.ReadP.val_main_v12 (F := Ideal) x0 x1 x2 x3 x4 x5 (ix2 p q)
      = Cert.Spec.outR (fun k f => x0 (ix2 k f)) (fun i k => x1 (ix2 i k)) (fun f j => x2 (ix2 f j)) (fun j => x3 (ix1 j))
          (fun j c => x4 (ix2 j c)) (fun c => x5 (ix1 c)) p q := by
  rw [val_main_v12_apply, v5c_at, v10c_at]
  rfl

/-- The run's result term is the last stage, at the arguments' launch contents. -/
theorem run_val (m : (ℓ : Loc nD τ sig) → Buf (Elt Ideal) ℓ) (c : Dev nD) :
    Cert.ReferenceIdeal.ValueP.res_main_v12 (F := Ideal) m c
      = Cert.ReferenceIdeal.ReadP.val_main_v12 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) :=
  Cert.ReferenceIdeal.ReadP.val_main_v12_eq m c

end Cert.ReferenceIdeal.RefValue

end
-- ==== Proof.SpecLaws.lean ====
import proofs.«160376_g44289702756771_cont_8to1_c_1056_3_alg».proof.Proof.Spec
import Mathlib.Data.EReal.Operations
import Mathlib.Data.Finset.Fold
import Mathlib.Algebra.BigOperators.Group.Finset.Basic

/-! The algebra of the specification. Two facts carry the whole equivalence:
      * on a row of real numbers the two spellings of the log-softmax agree, whatever extended real the
        logarithm of the sum of exponentials is;
      * the logits are real numbers when the six argument arrays are.
    Both rest on the real numbers being closed, inside the extended reals, under addition, multiplication, finite
    sums and the maximum. -/

noncomputable section

namespace Cert.Spec

open Idealize.ShloMosaic

/-- An extended real that is a real number. -/
def IsReal (a : EReal) : Prop := ∃ r : ℝ, a = (r : EReal)

theorem IsReal.zero : IsReal 0 := ⟨0, EReal.coe_zero.symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The larger of two real numbers is one of them. -/
theorem IsReal.max {a b : EReal} (ha : IsReal a) (hb : IsReal b) : IsReal (max a b) := by
  rcases max_choice a b with h | h
  · rw [h]; exact ha
  · rw [h]; exact hb

/-- A finite sum of real numbers is a real number (induction on the index set). -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih (fun i hi => h i (Finset.mem_insert_of_mem hi)))

/-- A maximum folded from the bottom element is the bottom element or one of the entries. -/
theorem foldMax_cases {ι : Type} (s : Finset ι) (v : ι → EReal) :
    s.fold max ⊥ v = ⊥ ∨ ∃ i ∈ s, s.fold max ⊥ v = v i := by
  classical
  induction s using Finset.induction_on with
  | empty => exact Or.inl Finset.fold_empty
  | insert a s ha ih =>
    rw [Finset.fold_insert ha]
    rcases ih with h | ⟨i, hi, h⟩
    · rw [h, max_eq_left bot_le]
      exact Or.inr ⟨a, Finset.mem_insert_self a s, rfl⟩
    · rw [h]
      rcases max_choice (v a) (v i) with h' | h'
      · exact Or.inr ⟨a, Finset.mem_insert_self a s, h'⟩
      · exact Or.inr ⟨i, Finset.mem_insert_of_mem hi, h'⟩

/-- The maximum of a row of real numbers is a real number: it is one of the entries, since it is at least the
    first entry and so is not the bottom element. -/
theorem rowMax_isReal (v : Fin 8 → EReal) (hv : Finite1 v) : IsReal (rowMax v) := by
  unfold rowMax
  rcases foldMax_cases (Finset.univ : Finset (Fin 8)) v with h | ⟨i, _, h⟩
  · exfalso
    obtain ⟨r, hr⟩ := hv 0
    have hle : v 0 ≤ (Finset.univ : Finset (Fin 8)).fold max ⊥ v :=
      (Finset.le_fold_max (v 0)).mpr (Or.inr ⟨0, Finset.mem_univ 0, le_refl (v 0)⟩)
    rw [h, hr] at hle
    exact EReal.coe_ne_bot r (le_bot_iff.mp hle)
  · rw [h]; exact hv i

/-- For real numbers `a`, `m` and any extended real `L`: `(a − m) − L = a − (L + m)`. When `L` is real this is
    arithmetic of real numbers; when `L` is `⊤` both sides are `⊥`; when `L` is `⊥` both sides are `⊤`. -/
theorem sub_sub_eq_sub_add (a m : ℝ) (L : EReal) :
    ((a : EReal) - (m : EReal)) - L = (a : EReal) - (L + (m : EReal)) := by
  induction L using EReal.rec with
  | bot =>
    rw [EReal.bot_add, ← EReal.coe_sub, EReal.coe_sub_bot, EReal.coe_sub_bot]
  | coe l =>
    rw [← EReal.coe_sub, ← EReal.coe_sub, ← EReal.coe_add, ← EReal.coe_sub]
    congr 1
    ring
  | top =>
    rw [EReal.top_add_coe, EReal.sub_top, EReal.sub_top]

/-- On a row of real numbers the kernel's and the reference's log-softmax agree. -/
theorem rowK_eq_rowR (v : Fin 8 → EReal) (hv : Finite1 v) : rowK v = rowR v := by
  funext c
  obtain ⟨m, hm⟩ := rowMax_isReal v hv
  obtain ⟨a, ha⟩ := hv c
  unfold rowK rowR
  rw [max_eq_right (bot_le : (⊥ : EReal) ≤ rowMax v), hm, ha]
  exact (sub_sub_eq_sub_add a m _).symm

theorem proj1_isReal (x : Fin 10000 → Fin 128 → EReal) (w1 : Fin 128 → Fin 16 → EReal)
    (hx : Finite2 x) (hw1 : Finite2 w1) (k : Fin 10000) (j : Fin 16) : IsReal (proj1 x w1 k j) := by
  unfold proj1
  exact IsReal.sum _ _ (fun f _ => IsReal.mul (hx k f) (hw1 f j))

theorem hid_isReal (adj : Fin 10000 → Fin 10000 → EReal) (p : Fin 10000 → Fin 16 → EReal) (b1 : Fin 16 → EReal)
    (hadj : Finite2 adj) (hp : ∀ k j, IsReal (p k j)) (hb1 : Finite1 b1) (i : Fin 10000) (j : Fin 16) :
    IsReal (hid adj p b1 i j) := by
  unfold hid
  exact IsReal.max (IsReal.add (IsReal.sum _ _ (fun k _ => IsReal.mul (hadj i k) (hp k j))) (hb1 j)) IsReal.zero

theorem proj2_isReal (h : Fin 10000 → Fin 16 → EReal) (w2 : Fin 16 → Fin 8 → EReal)
    (hh : ∀ k j, IsReal (h k j)) (hw2 : Finite2 w2) (k : Fin 10000) (c : Fin 8) : IsReal (proj2 h w2 k c) := by
  unfold proj2
  exact IsReal.sum _ _ (fun j _ => IsReal.mul (hh k j) (hw2 j c))

theorem logits_isReal (adj : Fin 10000 → Fin 10000 → EReal) (q : Fin 10000 → Fin 8 → EReal) (b2 : Fin 8 → EReal)
    (hadj : Finite2 adj) (hq : ∀ k c, IsReal (q k c)) (hb2 : Finite1 b2) (i : Fin 10000) (c : Fin 8) :
    IsReal (logits adj q b2 i c) := by
  unfold logits
  exact IsReal.add (IsReal.sum _ _ (fun k _ => IsReal.mul (hadj i k) (hq k c))) (hb2 c)

/-- The logits are real numbers when the six argument arrays are. -/
theorem zOf_finite (x : Fin 10000 → Fin 128 → EReal) (adj : Fin 10000 → Fin 10000 → EReal)
    (w1 : Fin 128 → Fin 16 → EReal) (b1 : Fin 16 → EReal) (w2 : Fin 16 → Fin 8 → EReal) (b2 : Fin 8 → EReal)
    (hx : Finite2 x) (hadj : Finite2 adj) (hw1 : Finite2 w1) (hb1 : Finite1 b1) (hw2 : Finite2 w2)
    (hb2 : Finite1 b2) : Finite2 (zOf x adj w1 b1 w2 b2) := by
  intro i c
  unfold zOf
  exact logits_isReal adj _ b2 hadj
    (proj2_isReal _ w2 (hid_isReal adj _ b1 hadj (proj1_isReal x w1 hx hw1) hb1) hw2) hb2 i c

/-- The kernel's and the reference's results agree when the six argument arrays hold real numbers. -/
theorem outK_eq_outR (x : Fin 10000 → Fin 128 → EReal) (adj : Fin 10000 → Fin 10000 → EReal)
    (w1 : Fin 128 → Fin 16 → EReal) (b1 : Fin 16 → EReal) (w2 : Fin 16 → Fin 8 → EReal) (b2 : Fin 8 → EReal)
    (hx : Finite2 x) (hadj : Finite2 adj) (hw1 : Finite2 w1) (hb1 : Finite1 b1) (hw2 : Finite2 w2)
    (hb2 : Finite1 b2) : outK x adj w1 b1 w2 b2 = outR x adj w1 b1 w2 b2 := by
  funext i c
  unfold outK outR
  exact congrFun (rowK_eq_rowR _ (fun c' => zOf_finite x adj w1 b1 w2 b2 hx hadj hw1 hb1 hw2 hb2 i c')) c

end Cert.Spec

end
-- ==== Proof.Finite.lean ====
import proofs.«160376_g44289702756771_cont_8to1_c_1056_3_alg».proof.Defs
import proofs.«160376_g44289702756771_cont_8to1_c_1056_3_alg».proof.Proof.Spec
import Idealize.ShloMosaic.Lib.ReduceAll
import Idealize.ShloMosaic.Lib.ValueIdx

/-! The printed precondition, read back. It tests each of the six argument arrays entry by entry, `|a| < +∞`,
    takes the conjunction of every entry's test over the whole array, and conjoins the six results. Over the
    extended reals `|a|` is `max a (-a)`, and the f32 pattern `0x7F800000` denotes `⊤`; so an entry passes
    exactly when it is neither `⊥` nor `⊤`, that is, when it is a real number. Hence: if the precondition
    holds, every entry of every argument array is a real number. -/

noncomputable section

namespace Cert.Finite

open Idealize.ShloMosaic Idealize.ShloMosaic.TcCoe Idealize.ShloMosaic.ValueIdx Idealize.SL.Sem

/-- The scalar shape has exactly one index: there is no axis to give a coordinate on. -/
instance : Subsingleton Cert.Pre_finite_inputs.S_.Idx := ⟨fun a b => funext fun d => d.elim0⟩

/-- The f32 pattern `0x7F800000` (sign 0, exponent all ones, significand 0) denotes `+∞`. -/
theorem ofBits_inf : Ideal.ofBits .f32 0x7F800000#32 = (⊤ : EReal) := by
  simp [Ideal.ofBits, Ideal.ieee]

/-- An extended real whose absolute value `max a (-a)` lies strictly below `⊤` is a real number:
    at `⊥` the maximum is `-⊥ = ⊤`, at `⊤` it is `⊤` itself, and neither is below `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- One entry's test: if the comparison `|a| < +∞` answers 1, then `a` is a real number. The comparison is the
    truth value of `max a (-a) < ⊤` as a one-bit word, and that word is 1 only when the inequality holds. -/
theorem real_of_test (a : Ideal .f32)
    (h : FloatOps.cmpf .olt (FloatOps.hostAbsf a) (FloatOps.ofBits (F := Ideal) .f32 0x7F800000#32) = 1#1) :
    ∃ r : ℝ, a = (r : EReal) := by
  refine real_of_abs_lt_top a ?_
  have h' : BitVec.ofBool (decide (max a (-a) < Ideal.ofBits .f32 0x7F800000#32)) = 1#1 := h
  rw [ofBits_inf] at h'
  by_contra hn
  rw [decide_eq_false hn] at h'
  exact absurd h' (by decide)

/-- A float array of any shape all of whose entries pass the test has real entries: the conjunction over every
    axis, folded from 1 into a result of one index, is 1 only if each entry's test is 1. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) (i : s.Idx) :
    ∃ r : ℝ, x i = (r : EReal) :=
  real_of_test (x i) (Host.reduce_andi_all _ _ hr hu ix0 e i)

/-- Under the precondition every entry of each of the six argument arrays is a real number. The precondition's
    value at its one index is a five-fold conjunction `((((t₀ ∧ t₁) ∧ t₂) ∧ t₃) ∧ t₄) ∧ t₅` of the six arrays'
    tests; it is 1, so each `tₙ` is 1, and `all_real` reads each array's entries off its `tₙ`. -/
theorem inputs_finite [Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) :
    Cert.Spec.Finite2 (fun k f => m ((c.tc : Thread Cert.KernelIdeal.nD Cert.KernelIdeal.τ).loc Cert.KernelIdeal.main_arg0) (ix2 k f))
    ∧ Cert.Spec.Finite2 (fun i k => m ((c.tc : Thread Cert.KernelIdeal.nD Cert.KernelIdeal.τ).loc Cert.KernelIdeal.main_arg1) (ix2 i k))
    ∧ Cert.Spec.Finite2 (fun f j => m ((c.tc : Thread Cert.KernelIdeal.nD Cert.KernelIdeal.τ).loc Cert.KernelIdeal.main_arg2) (ix2 f j))
    ∧ Cert.Spec.Finite1 (fun j => m ((c.tc : Thread Cert.KernelIdeal.nD Cert.KernelIdeal.τ).loc Cert.KernelIdeal.main_arg3) (ix1 j))
    ∧ Cert.Spec.Finite2 (fun j cl => m ((c.tc : Thread Cert.KernelIdeal.nD Cert.KernelIdeal.τ).loc Cert.KernelIdeal.main_arg4) (ix2 j cl))
    ∧ Cert.Spec.Finite1 (fun cl => m ((c.tc : Thread Cert.KernelIdeal.nD Cert.KernelIdeal.τ).loc Cert.KernelIdeal.main_arg5) (ix1 cl)) := by
  have h0 := congrFun (h c) ix0
  dsimp only [Cert.Pre_finite_inputs.fn, Cert.Pre_finite_inputs.fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun k f => all_real _ _ _ _ e0 (ix2 k f), fun i k => all_real _ _ _ _ e1 (ix2 i k),
    fun f j => all_real _ _ _ _ e2 (ix2 f j), fun j => all_real _ _ _ _ e3 (ix1 j),
    fun j cl => all_real _ _ _ _ e4 (ix2 j cl), fun cl => all_real _ _ _ _ e5 (ix1 cl)⟩

end Cert.Finite

end
-- ==== Proof.lean ====
import proofs.«160376_g44289702756771_cont_8to1_c_1056_3_alg».proof.Defs
import proofs.«160376_g44289702756771_cont_8to1_c_1056_3_alg».proof.Proof.Gen.Kernel
import proofs.«160376_g44289702756771_cont_8to1_c_1056_3_alg».proof.Proof.Gen.KernelIdeal
import proofs.«160376_g44289702756771_cont_8to1_c_1056_3_alg».proof.Proof.Gen.ReferenceIdeal
import proofs.«160376_g44289702756771_cont_8to1_c_1056_3_alg».proof.Proof.Gen.Pre_finite_inputs
import proofs.«160376_g44289702756771_cont_8to1_c_1056_3_alg».proof.Proof.Kernel.Run
import proofs.«160376_g44289702756771_cont_8to1_c_1056_3_alg».proof.Proof.KernelIdeal.Run
import proofs.«160376_g44289702756771_cont_8to1_c_1056_3_alg».proof.Proof.KernelIdeal.Arrays
import proofs.«160376_g44289702756771_cont_8to1_c_1056_3_alg».proof.Proof.ReferenceValue
import proofs.«160376_g44289702756771_cont_8to1_c_1056_3_alg».proof.Proof.SpecLaws
import proofs.«160376_g44289702756771_cont_8to1_c_1056_3_alg».proof.Proof.Finite
import Idealize.ShloMosaic.Adequacy
import Idealize.ShloMosaic.Init

/-! The certificate of a two-layer dense graph convolution with a fused row-wise log-softmax,
      out = logsoftmax (adj · (max (adj · (x · W1) + b1) 0 · W2) + b2),
    x : 10000×128, adj : 10000×10000, W1 : 128×16, b1 : 16, W2 : 16×8, b2 : 8, against its array-level reference.

    The kernel program is two grid regions of 25 points, each streaming 400 rows of `adj` per point. At its first point
    a region fills a scratch with the small projection (x · W1, resp. h · W2) and every point multiplies its block of
    `adj` by that scratch; so between points the scratch carries the projection, and each point writes one block of
    400 rows of the region's output, the same function of its rows of `adj` at every point. The frames (both float
    instances) are the run of @main over that invariant. Over the extended reals the output array of each region
    is, index by index, the plain sum-and-maximum formula of the whole arrays; the second region reads the first
    region's output as its hidden layer. The reference computes the same logits; the two programs differ only in how
    they normalise a row `v`: the kernel as `v c − (log (∑ exp (v − m)) + m)`, the reference as
    `(v c − m) − log (∑ exp (v − m))`, `m` the row's maximum. These agree when `v` and `m` are real numbers, whatever
    the logarithm is, and the precondition (every input entry finite) makes every logit a real number. -/

noncomputable section

namespace Cert.Proof

open Idealize.ShloMosaic Idealize.ShloMosaic.TcCoe Idealize.SL.Sem Idealize.ShloMosaic.ValueIdx
open Cert.KernelIdeal Cert.KernelIdeal.Gen Cert.KernelIdeal.Run

/-! ## The frames and the idealization -/

theorem frame_k : Cert.frame_Kernel := fun m ρ _ => Cert.Kernel.Run.frame m ρ
theorem frame_ki : Cert.frame_KernelIdeal := fun m ρ _ => Cert.KernelIdeal.Run.frame m ρ
theorem frame_ri : Cert.frame_ReferenceIdeal := fun m ρ _ =>
  (θ_run Cert.ReferenceIdeal.defs _ _).mono (fun _ h c => (h c).2) (Cert.ReferenceIdeal.ValueP.run (F := Ideal) m ρ)
/-- The ideal pass rewrote nothing: the idealization is the kernel's own text read over the extended reals. -/
theorem preserves : Cert.preserves_Kernel_KernelIdeal := trivial

/-! ## The kernel's result is `Spec.outK` of the launch arrays -/

section Value

variable (m : (ℓ : Loc nD τ sig) → Buf (Elt Ideal) ℓ) (ρ : Dev nD → PrngReg) (c : Dev nD)

/-- The six argument arrays of core `c` at launch, as curried tables. -/
abbrev xT : Fin 10000 → Fin 128 → EReal := fun k f => m ((c.tc : Thread Cert.KernelIdeal.nD Cert.KernelIdeal.τ).loc Cert.KernelIdeal.main_arg0) (ix2 k f)
abbrev adjT : Fin 10000 → Fin 10000 → EReal := fun i k => m ((c.tc : Thread Cert.KernelIdeal.nD Cert.KernelIdeal.τ).loc Cert.KernelIdeal.main_arg1) (ix2 i k)
abbrev w1T : Fin 128 → Fin 16 → EReal := fun f j => m ((c.tc : Thread Cert.KernelIdeal.nD Cert.KernelIdeal.τ).loc Cert.KernelIdeal.main_arg2) (ix2 f j)
abbrev b1T : Fin 16 → EReal := fun j => m ((c.tc : Thread Cert.KernelIdeal.nD Cert.KernelIdeal.τ).loc Cert.KernelIdeal.main_arg3) (ix1 j)
abbrev w2T : Fin 16 → Fin 8 → EReal := fun j cl => m ((c.tc : Thread Cert.KernelIdeal.nD Cert.KernelIdeal.τ).loc Cert.KernelIdeal.main_arg4) (ix2 j cl)
abbrev b2T : Fin 8 → EReal := fun cl => m ((c.tc : Thread Cert.KernelIdeal.nD Cert.KernelIdeal.τ).loc Cert.KernelIdeal.main_arg5) (ix1 cl)

/-- The hidden layer the second region reads: the first region's output array, which holds `max (adj · (x · W1) + b1) 0`
    of the launch arrays (the first region finds the arguments as launched and the bias as a one-row matrix). -/
theorem hidden_eq :
    (fun k j => V2 m ρ c main_v2 (ix2 k j)) = Cert.Spec.hid (adjT m c) (Cert.Spec.proj1 (xT m c) (w1T m c)) (b1T m c) := by
  funext k j
  rw [V2_main_v2, Cert.KernelIdeal.Arrays.hidden_array (V1 m ρ) c k j]
  have e1 : (fun i k => V1 m ρ c main_arg1 (ix2 i k)) = adjT m c := by funext i k; rw [V1_main_arg1]
  have e2 : (fun k f => V1 m ρ c main_arg0 (ix2 k f)) = xT m c := by funext k f; rw [V1_main_arg0]
  have e3 : (fun f j => V1 m ρ c main_arg2 (ix2 f j)) = w1T m c := by funext f j; rw [V1_main_arg2]
  have e4 : (fun j => V1 m ρ c main_v0 (ix2 0 j)) = b1T m c := by funext j; exact V1_main_v0_apply m ρ c j
  rw [e1, e2, e3, e4]

/-- The result array after the second region, at `(p, q)`. -/
theorem kernel_value (p : Fin 10000) (q : Fin 8) :
    (Layer2.dat (V2 m ρ) c).arrAt 4 cfg1.N (ix2 p q)
      = Cert.Spec.outK (xT m c) (adjT m c) (w1T m c) (b1T m c) (w2T m c) (b2T m c) p q := by
  rw [Cert.KernelIdeal.Arrays.out_array (V2 m ρ) c p q]
  have e1 : (fun i k => V2 m ρ c main_arg1 (ix2 i k)) = adjT m c := by funext i k; rw [V2_main_arg1]
  have e2 : (fun j cl => V2 m ρ c main_arg4 (ix2 j cl)) = w2T m c := by funext j cl; rw [V2_main_arg4]
  have e3 : (fun cl => V2 m ρ c main_v1 (ix2 0 cl)) = b2T m c := by
    funext cl; rw [V2_main_v1]; exact V1_main_v1_apply m ρ c cl
  rw [e1, e2, e3, hidden_eq m ρ c]
  rfl

end Value

/-! ## The two programs agree -/

/-- Both programs run; the kernel's result array is `Spec.outK` of the launch arrays index by index, the reference's
    `Spec.outR` of the same arrays (the memories agree on the arguments), and the two functions agree because the
    precondition makes every entry of every argument a real number. -/
theorem algebraic : Cert.algebraic_KernelIdeal_ReferenceIdeal := by
  intro m ρ m' ρ' hpre hagree
  refine ⟨fun c => (Layer2.dat (V2 m ρ) c).arrAt 4 cfg1.N, Cert.KernelIdeal.Run.run_all (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hadj, hw1, hb1, hw2, hb2⟩ := Cert.Finite.inputs_finite m hpre c
  funext idx
  obtain ⟨p, q, rfl⟩ : ∃ (p : Fin 10000) (q : Fin 8), idx = ix2 p q := ⟨idx 0, idx 1, eq_ix2 idx⟩
  rw [Cert.ReferenceIdeal.RefValue.run_val m' c, (hagree c).1, (hagree c).2.1, (hagree c).2.2.1, (hagree c).2.2.2.1,
    (hagree c).2.2.2.2.1, (hagree c).2.2.2.2.2]
  show _ = (Layer2.dat (V2 m ρ) c).arrAt 4 cfg1.N (ix2 p q)
  rw [kernel_value m ρ c p q, Cert.Spec.outK_eq_outR _ _ _ _ _ _ hx hadj hw1 hb1 hw2 hb2]
  exact Cert.ReferenceIdeal.RefValue.ref_eq _ _ _ _ _ _ p q

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
